-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x4096 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096 .f32) (main_arg5 : FVec F S1024x4096 .f32) (main_arg6 : FVec F S1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S1024x1024 : Shape := ⟨2, ![1024, 1024]⟩
abbrev S1x1024 : Shape := ⟨2, ![1, 1024]⟩
abbrev S4096x1024 : Shape := ⟨2, ![4096, 1024]⟩

abbrev nBuf : Space → Nat
  | .hbm => 16
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S4096x4096, .bf16⟩
  | .hbm, ⟨11, _⟩ => ⟨S1x4096, .f32⟩
  | .hbm, ⟨12, _⟩ => ⟨S4096x4096, .bf16⟩
  | .hbm, ⟨13, _⟩ => ⟨S1024x4096, .bf16⟩
  | .hbm, ⟨14, _⟩ => ⟨S1x1024, .f32⟩
  | .hbm, ⟨15, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024_S1x1024 : S1024.ShapeCasts S1x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .bf16 = 32 ∨ (Rect.block (s := S4096x4096) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .bf16 = 32 ∨ (Rect.block (s := S1024x4096) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x4096_S4096x4096_S4096x4096_1_1_0_0_n_n_wf : DotDims.WF S4096x4096 S4096x4096 S4096x4096 [1] [1] [0] [0] [] []
  dot_S4096x4096_S1024x4096_S4096x1024_1_1_0_0_n_n_wf : DotDims.WF S4096x4096 S1024x4096 S4096x1024 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf
def dot_S4096x4096_S1024x4096_S4096x1024_1_1_0_0_n_n : DotDims S4096x4096 S1024x4096 S4096x1024 where
  lhsContracting := [1]
  rhsContracting := [1]
  lhsNonContracting := [0]
  rhsNonContracting := [0]
  lhsBatch := []
  rhsBatch := []
  wf := dot_S4096x4096_S1024x4096_S4096x1024_1_1_0_0_n_n_wf

class Facts : Prop extends Facts₀ where

variable [Facts]
-- ==== Proof.BitsRnnBody.lean ====
/-
  The recurrent cell's kernel body at one grid point, as three triples.

  The body keeps a running total in a scratch buffer across the four blocks of the contracted axis. At the first block
  it clears the total; at every block it adds that block's two products — the input block with its transposed weight
  block, and the hidden-state block with its transposed weight block —; at the last block it adds the bias row, applies
  tanh and stores the result block in the narrower format. Each triple says what the scratch (and, at the last block,
  the result's staging buffer) holds afterwards, as the body's own arithmetic applied to what the buffers held:
  `blockSum` is one block's update of the total, `activated` the last step.
-/
import proofs.«111847_j33921651704507_1_alg».proof.Proof.Gen.Kernel.Launch
import proofs.«111847_j33921651704507_1_alg».proof.Proof.Gen.Kernel.Skeleton
import proofs.«111847_j33921651704507_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the contracted-axis coordinate is 0. -/
abbrev isFirst (i : grid0.Coords) : Prop :=
  (Scalar.cmpi .ne (Scalar.extui (Scalar.cmpi .eq (BitVec.ofNat 32 (i 2).val) 0#32)) 0#32) = 1#1
/-- The second branch's condition: the contracted-axis coordinate is the last one. -/
abbrev isLast (i : grid0.Coords) : Prop := k0_cond2 i = 1#1

/-- The zero offsets of a whole-block access, however spelt. -/
theorem off0 : (![0, 0] : Fin S1024x1024.rank → Nat) = fun _ => 0 := by
  funext a; match a with | ⟨0, _⟩ => rfl | ⟨1, _⟩ => rfl
theorem off0row : (![0, 0] : Fin S1x1024.rank → Nat) = fun _ => 0 := by
  funext a; match a with | ⟨0, _⟩ => rfl | ⟨1, _⟩ => rfl

/-- The cleared total. -/
abbrev cleared : Vec F S1024x1024 .f32 := k0_pay1 (F := F)
/-- One block's update: the total `s` plus the product of the input block `x` with the transposed weight block `wx`
    plus the product of the hidden-state block `h` with the transposed weight block `wh`. -/
abbrev blockSum (s : Vec F S1024x1024 .f32) (x wx h wh : Vec F S1024x1024 .bf16) : Vec F S1024x1024 .f32 := k0_pay2 s x wx h wh
/-- The last step: tanh of the total plus the bias row laid along the rows, in the narrower format. -/
abbrev activated (s : Vec F S1024x1024 .f32) (b : Vec F S1x1024 .f32) : Vec F S1024x1024 .bf16 := k0_pay3 s b

set_option maxHeartbeats 1000000 in
/-- A middle block: the total is updated, nothing else changes. -/
theorem body_mid (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc1 : ¬isFirst i) (hc2 : ¬isLast i)
    (x wx h wh : Vec F S1024x1024 .bf16) (s : Vec F S1024x1024 .f32) (K : PUnit → sProp 𝕄) :
    iprop(owns (c : Thread nD τ) arg3 fullShare x ∗ owns (c : Thread nD τ) arg4 fullShare wx ∗ owns (c : Thread nD τ) arg5 fullShare h ∗ owns (c : Thread nD τ) arg6 fullShare wh ∗ owns (c : Thread nD τ) arg9 fullShare s
        ∗ (iprop(owns (c : Thread nD τ) arg3 fullShare x ∗ owns (c : Thread nD τ) arg4 fullShare wx ∗ owns (c : Thread nD τ) arg5 fullShare h ∗ owns (c : Thread nD τ) arg6 fullShare wh
              ∗ owns (c : Thread nD τ) arg9 fullShare (blockSum s x wx h wh)) -∗ K ⟨⟩))
      ⊢ wp frame (wpE (defs₀ (F := F)) Variants.none c none) E (cc0__rnn_kernel i arg3 harg3 arg4 harg4 arg5 harg5 arg6 harg6 arg7 harg7 arg8 harg8 arg9 harg9) K := by
  simp only [cc0__rnn_kernel_eq_skeleton]; unfold cc0__rnn_kernel_skel
  unfold owns
  iintro ⟨⟨%f3, %hf3, H3⟩, ⟨%f4, %hf4, H4⟩, ⟨%f5, %hf5, H5⟩, ⟨%f6, %hf6, H6⟩, ⟨%f9, %hf9, H9⟩, Hk⟩
  obtain rfl := harg3.eq_unread hf3; obtain rfl := harg4.eq_unread hf4; obtain rfl := harg5.eq_unread hf5
  obtain rfl := harg6.eq_unread hf6; obtain rfl := harg9.eq_unread hf9
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg3.read_unread, harg4.read_unread, harg5.read_unread, harg6.read_unread, harg9.read_unread,
    View.ld_unit_zero (S := S1024x1024) off0, View.ld_unit_zero (S := S1x1024) off0row,
    View.readCov_unit_zero (S := S1024x1024) _ off0]

set_option maxHeartbeats 1000000 in
/-- The first block: the total is cleared, then updated; what the scratch held before does not matter. -/
theorem body_first (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc1 : isFirst i) (hc2 : ¬isLast i)
    (x wx h wh : Vec F S1024x1024 .bf16) (K : PUnit → sProp 𝕄) :
    iprop(owns (c : Thread nD τ) arg3 fullShare x ∗ owns (c : Thread nD τ) arg4 fullShare wx ∗ owns (c : Thread nD τ) arg5 fullShare h ∗ owns (c : Thread nD τ) arg6 fullShare wh ∗ (∃ d, owns (c : Thread nD τ) arg9 fullShare d)
        ∗ (iprop(owns (c : Thread nD τ) arg3 fullShare x ∗ owns (c : Thread nD τ) arg4 fullShare wx ∗ owns (c : Thread nD τ) arg5 fullShare h ∗ owns (c : Thread nD τ) arg6 fullShare wh
              ∗ owns (c : Thread nD τ) arg9 fullShare (blockSum (cleared (F := F)) x wx h wh)) -∗ K ⟨⟩))
      ⊢ wp frame (wpE (defs₀ (F := F)) Variants.none c none) E (cc0__rnn_kernel i arg3 harg3 arg4 harg4 arg5 harg5 arg6 harg6 arg7 harg7 arg8 harg8 arg9 harg9) K := by
  simp only [cc0__rnn_kernel_eq_skeleton]; unfold cc0__rnn_kernel_skel
  unfold owns
  iintro ⟨⟨%f3, %hf3, H3⟩, ⟨%f4, %hf4, H4⟩, ⟨%f5, %hf5, H5⟩, ⟨%f6, %hf6, H6⟩, ⟨%d9, %f9, %hf9, H9⟩, Hk⟩
  obtain rfl := harg3.eq_unread hf3; obtain rfl := harg4.eq_unread hf4; obtain rfl := harg5.eq_unread hf5
  obtain rfl := harg6.eq_unread hf6
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg3.read_unread, harg4.read_unread, harg5.read_unread, harg6.read_unread,
    View.ld_unit_zero (S := S1024x1024) off0, View.ld_unit_zero (S := S1x1024) off0row,
    View.readCov_unit_zero (S := S1024x1024) _ off0]

set_option maxHeartbeats 1000000 in
/-- The last block: the total is updated, then the bias row is added, tanh applied and the result block stored. -/
theorem body_last (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc1 : ¬isFirst i) (hc2 : isLast i)
    (x wx h wh : Vec F S1024x1024 .bf16) (b : Vec F S1x1024 .f32) (s : Vec F S1024x1024 .f32) (K : PUnit → sProp 𝕄) :
    iprop(owns (c : Thread nD τ) arg3 fullShare x ∗ owns (c : Thread nD τ) arg4 fullShare wx ∗ owns (c : Thread nD τ) arg5 fullShare h ∗ owns (c : Thread nD τ) arg6 fullShare wh ∗ owns (c : Thread nD τ) arg7 fullShare b
        ∗ (∃ d, owns (c : Thread nD τ) arg8 fullShare d) ∗ owns (c : Thread nD τ) arg9 fullShare s
        ∗ (iprop(owns (c : Thread nD τ) arg3 fullShare x ∗ owns (c : Thread nD τ) arg4 fullShare wx ∗ owns (c : Thread nD τ) arg5 fullShare h ∗ owns (c : Thread nD τ) arg6 fullShare wh ∗ owns (c : Thread nD τ) arg7 fullShare b
              ∗ owns (c : Thread nD τ) arg8 fullShare (activated (blockSum s x wx h wh) b)
              ∗ owns (c : Thread nD τ) arg9 fullShare (blockSum s x wx h wh)) -∗ K ⟨⟩))
      ⊢ wp frame (wpE (defs₀ (F := F)) Variants.none c none) E (cc0__rnn_kernel i arg3 harg3 arg4 harg4 arg5 harg5 arg6 harg6 arg7 harg7 arg8 harg8 arg9 harg9) K := by
  simp only [cc0__rnn_kernel_eq_skeleton]; unfold cc0__rnn_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [View.read_writes_eq_canon _ _ _ (fun y => ⟨_, List.mem_cons_self .., View.mem_set_unit_zero off0 inb_S1024x1024_S1024x1024_0_0 y⟩),
      View.canon_cons_unit_zero off0]
    simp only [View.readAt_eq_ld, harg3.read_unread, harg4.read_unread, harg5.read_unread, harg6.read_unread, harg7.read_unread, harg9.read_unread,
      View.ld_unit_zero (S := S1024x1024) off0, View.ld_unit_zero (S := S1x1024) off0row,
      View.readCov_unit_zero (S := S1024x1024) _ off0]
  iexists _; isplitr
  swap; · iexact H9
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg3.read_unread, harg4.read_unread, harg5.read_unread, harg6.read_unread, harg9.read_unread,
    View.ld_unit_zero (S := S1024x1024) off0, View.ld_unit_zero (S := S1x1024) off0row,
    View.readCov_unit_zero (S := S1024x1024) _ off0]

end Cert.Kernel.Rnn

end
-- ==== Proof.BitsRnnData.lean ====
/-
  The recurrent cell's call, point by point: what each window's block is, what the running total holds after each grid
  point, and that the kernel body, run at a point from the state the point before left, leaves exactly that.

  The grid runs over 4 row blocks, 4 column blocks and, fastest, the 4 blocks of the contracted axis: point t works on
  contracted block t % 4. The total kept in the scratch after point t is, by recursion on t, the update of the cleared
  total (at t % 4 = 0) or of the total the point before left (otherwise) by point t's four blocks. The result block is
  stored only at t % 4 = 3, from that point's total and the bias row; at the other points its staging buffer is handed
  back as found.
-/
import proofs.«111847_j33921651704507_1_alg».proof.Proof.Gen.Kernel.Launch
import proofs.«111847_j33921651704507_1_alg».proof.Proof.Gen.Kernel.Skeleton
import proofs.«111847_j33921651704507_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111847_j33921651704507_1_alg».proof.Proof.BitsRnnBody

set_option maxRecDepth 16384

noncomputable section

namespace Cert.Kernel.Rnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

-- The core's buffer contents when the call is entered: the parameter everything here is stated at.
variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The input windows' blocks at point `t`, at their literal types. -/
abbrev xblk (c : Dev nD) (t : Fin cfg0.N) : Vec F S1024x1024 .bf16 := iblk V c 0 t
abbrev wxblk (c : Dev nD) (t : Fin cfg0.N) : Vec F S1024x1024 .bf16 := iblk V c 1 t
abbrev hblk (c : Dev nD) (t : Fin cfg0.N) : Vec F S1024x1024 .bf16 := iblk V c 2 t
abbrev whblk (c : Dev nD) (t : Fin cfg0.N) : Vec F S1024x1024 .bf16 := iblk V c 3 t
abbrev bblk (c : Dev nD) (t : Fin cfg0.N) : Vec F S1x1024 .f32 := iblk V c 4 t

/-! ## The branch conditions and the idle points, decided over the grid -/

theorem first_iff : ∀ t : Fin cfg0.N, isFirst (grid0.coords t) ↔ t.val % 4 = 0 :=
  (by decide +kernel : ∀ t : Fin grid0.N, isFirst (grid0.coords t) ↔ t.val % 4 = 0)
theorem last_iff : ∀ t : Fin cfg0.N, isLast (grid0.coords t) ↔ t.val % 4 = 3 :=
  (by decide +kernel : ∀ t : Fin grid0.N, isLast (grid0.coords t) ↔ t.val % 4 = 3)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last contracted block the result window is idle and not written back. -/
theorem idle5 : ∀ t : Fin cfg0.N, ¬isLast (grid0.coords t) → cfg0.idle 5 (grid0.coords t) = true := by decide +kernel
theorem noflush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel

/-! ## The running total -/

/-- The total in the scratch after point `n`. -/
def totalAt (c : Dev nD) : (n : ℕ) → n < cfg0.N → Vec F S1024x1024 .f32
  | 0, hn => blockSum (cleared (F := F)) (xblk V c ⟨0, hn⟩) (wxblk V c ⟨0, hn⟩) (hblk V c ⟨0, hn⟩) (whblk V c ⟨0, hn⟩)
  | n + 1, hn => blockSum (if (n + 1) % 4 = 0 then cleared (F := F) else totalAt c n (Nat.lt_of_succ_lt hn))
      (xblk V c ⟨n + 1, hn⟩) (wxblk V c ⟨n + 1, hn⟩) (hblk V c ⟨n + 1, hn⟩) (whblk V c ⟨n + 1, hn⟩)

/-- At a first contracted block the total restarts from the cleared one. -/
theorem totalAt_first (c : Dev nD) (t : Fin cfg0.N) (h0 : t.val % 4 = 0) :
    totalAt V c t.val t.isLt = blockSum (cleared (F := F)) (xblk V c t) (wxblk V c t) (hblk V c t) (whblk V c t) := by
  obtain ⟨n, hn⟩ := t
  cases n with
  | zero => rfl
  | succ n => exact (congrArg (fun s => blockSum s (xblk V c ⟨n + 1, hn⟩) (wxblk V c ⟨n + 1, hn⟩) (hblk V c ⟨n + 1, hn⟩) (whblk V c ⟨n + 1, hn⟩)) (if_pos h0)).trans rfl

/-- At any other block it continues from what the point before left. -/
theorem totalAt_next (c : Dev nD) (t : Fin cfg0.N) (h0 : ¬t.val % 4 = 0) :
    totalAt V c t.val t.isLt
      = blockSum (totalAt V c (t.val - 1) (Nat.lt_of_le_of_lt (Nat.sub_le _ _) t.isLt)) (xblk V c t) (wxblk V c t) (hblk V c t) (whblk V c t) := by
  obtain ⟨n, hn⟩ := t
  cases n with
  | zero => exact absurd (Nat.zero_mod _) h0
  | succ n => exact (congrArg (fun s => blockSum s (xblk V c ⟨n + 1, hn⟩) (wxblk V c ⟨n + 1, hn⟩) (hblk V c ⟨n + 1, hn⟩) (whblk V c ⟨n + 1, hn⟩)) (if_neg h0)).trans rfl

/-! ## The invariant: the scratch at the running total -/

/-- The scratch the kernel carries between points. -/
abbrev scr : Memref sig .tc .vmem S1024x1024 .f32 := Memref.whole cc0_scratch0

/-- The core's other scoped buffers that this call stages nothing in, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the call is handed before its first point: the scratch at anything, the other scoped buffers, the generator register. -/
theorem PhiA_open (c : Dev nD) :
    (Pipeline.ΦA spec0 c : sProp 𝕄) ⊢ iprop((∃ d, owns (c : Thread nD τ) scr fullShare d) ∗ rest (F := F) c ∗ (∃ r, prngReg c r)) := by
  unfold Pipeline.ΦA rest; rw [scopedRest0_eq]
  iintro ⟨⟨⟨%f, HS⟩, Hr⟩, Hg⟩
  isplitl [HS]
  · iexists f; rw [owns_whole]; iexact HS
  isplitl [Hr]; · iexact Hr
  iexact Hg

/-- And given back after its last. -/
theorem PhiA_close (c : Dev nD) :
    iprop((∃ d, owns (c : Thread nD τ) scr fullShare d) ∗ rest (F := F) c ∗ (∃ r, prngReg c r)) ⊢ (Pipeline.ΦA spec0 c : sProp 𝕄) := by
  unfold Pipeline.ΦA rest; rw [scopedRest0_eq]
  iintro ⟨⟨%d, HS⟩, Hr, Hg⟩
  isplitr [Hg]
  swap; · iexact Hg
  isplitl [HS]
  · iexists d; rw [← owns_whole]; iexact HS
  iexact Hr

/-- The invariant before point `n`: before the first point what the call was handed; afterwards the scratch at the
    total the point before left. -/
def inv (c : Dev nD) : (n : ℕ) → n ≤ cfg0.N → sProp 𝕄
  | 0, _ => Pipeline.ΦA spec0 c
  | n + 1, hn => iprop(owns (c : Thread nD τ) scr fullShare (totalAt V c n hn) ∗ rest (F := F) c ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) scr fullShare (totalAt V c n hn) ∗ rest (F := F) c ∗ (∃ r, prngReg c r)) := rfl
theorem inv_pos (c : Dev nD) (n : ℕ) (h : n ≤ cfg0.N) (hz : n ≠ 0) :
    inv V c n h = iprop(owns (c : Thread nD τ) scr fullShare (totalAt V c (n - 1) (by omega)) ∗ rest (F := F) c ∗ (∃ r, prngReg c r)) := by
  cases n with
  | zero => exact absurd rfl hz
  | succ n => rfl

/-- Whatever the point, the invariant holds the scratch at SOME contents. -/
theorem inv_any (c : Dev nD) (n : ℕ) (h : n ≤ cfg0.N) :
    inv V c n h ⊢ iprop((∃ d, owns (c : Thread nD τ) scr fullShare d) ∗ rest (F := F) c ∗ (∃ r, prngReg c r)) := by
  cases n with
  | zero => exact PhiA_open c
  | succ n =>
    rw [inv_succ]
    iintro ⟨HS, Hr, Hg⟩
    isplitl [HS]; · iexists _; iexact HS
    isplitl [Hr]; · iexact Hr
    iexact Hg

/-! ## The proof data -/

/-- The call's proof data on core `c`: the arrays as the call finds them; after the body at point `t` each input's
    buffer at its block and the result's at tanh of the total plus the bias row; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => activated (totalAt V c t.val t.isLt) (bblk V c t)
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = activated (totalAt V c t.val t.isLt) (bblk V c t) := by dsimp only [dat]
theorem before0 (c : Dev nD) (t : Fin cfg0.N) (d) : (dat V c).before 0 t d = iblk V c 0 t := before_in0 V (dat V c) (A_eq V c 0) (after0 V c) t d
theorem before1 (c : Dev nD) (t : Fin cfg0.N) (d) : (dat V c).before 1 t d = iblk V c 1 t := before_in1 V (dat V c) (A_eq V c 1) (after1 V c) t d
theorem before2 (c : Dev nD) (t : Fin cfg0.N) (d) : (dat V c).before 2 t d = iblk V c 2 t := before_in2 V (dat V c) (A_eq V c 2) (after2 V c) t d
theorem before3 (c : Dev nD) (t : Fin cfg0.N) (d) : (dat V c).before 3 t d = iblk V c 3 t := before_in3 V (dat V c) (A_eq V c 3) (after3 V c) t d
theorem before4 (c : Dev nD) (t : Fin cfg0.N) (d) : (dat V c).before 4 t d = iblk V c 4 t := before_in4 V (dat V c) (A_eq V c 4) (after4 V c) t d

/-! ## The body obligation -/

/-- Each window's current staging memref at point `t`, as the pipeline passes it. -/
abbrev ms0 (t : Fin cfg0.N) : Memref sig .tc .vmem S1024x1024 .bf16 := win0_0.stage (cfg0.slots t 0)
abbrev ms1 (t : Fin cfg0.N) : Memref sig .tc .vmem S1024x1024 .bf16 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1x1024 .f32 := win0_4.stage (cfg0.slots t 4)
abbrev ms5 (t : Fin cfg0.N) : Memref sig .tc .vmem S1024x1024 .bf16 := win0_5.stage (cfg0.slots t 5)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t)

set_option maxHeartbeats 4000000 in
/-- The body at any point: by the contracted block the point is on, one of the three triples applies; the invariant
    hands it the scratch at what the point before left (at anything, before a first block) and takes it back at this
    point's total. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).owesAt () t.succ = (dat V c).owesAt () t.castSucc from rfl,
    show (dat V c).Φ t.succ = inv V c (t.val + 1) t.isLt from rfl, inv_succ, inv_castSucc V c t,
    show (dat V c).leavesExact 0 t = owns (c : Thread nD τ) (ms0 t) fullShare ((dat V c).after 0 t) from by
      unfold Dat.leavesExact; rw [live0 t],
    show (dat V c).leavesExact 1 t = owns (c : Thread nD τ) (ms1 t) fullShare ((dat V c).after 1 t) from by
      unfold Dat.leavesExact; rw [live1 t],
    show (dat V c).leavesExact 2 t = owns (c : Thread nD τ) (ms2 t) fullShare ((dat V c).after 2 t) from by
      unfold Dat.leavesExact; rw [live2 t],
    show (dat V c).leavesExact 3 t = owns (c : Thread nD τ) (ms3 t) fullShare ((dat V c).after 3 t) from by
      unfold Dat.leavesExact; rw [live3 t],
    show (dat V c).leavesExact 4 t = owns (c : Thread nD τ) (ms4 t) fullShare ((dat V c).after 4 t) from by
      unfold Dat.leavesExact; rw [live4 t],
    after0, after1, after2, after3, after4]
  by_cases h0 : t.val % 4 = 0
  · have h3 : ¬t.val % 4 = 3 := by omega
    have hl : ¬isLast (grid0.coords t) := fun h => h3 ((last_iff t).mp h)
    rw [Dat.leavesExact_idle (dat V c) 5 t (idle5 t hl) (noflush5 t hl), totalAt_first V c t h0]
    iintro ⟨HΦ, Ho, ⟨%d0, H0⟩, ⟨%d1, H1⟩, ⟨%d2, H2⟩, ⟨%d3, H3⟩, ⟨%d4, H4⟩, ⟨%d5, H5⟩⟩
    ihave HΦ' := (inv_any V c t.val (Nat.le_of_lt t.isLt)) $$ HΦ
    icases HΦ' with ⟨HS, Hr, Hg⟩
    iapply (body_first c Set.univ (grid0.coords t) _ _ _ _ _ _ _ _ _ _ _ _ _ _ ((first_iff t).mpr h0) hl (xblk V c t) (wxblk V c t) (hblk V c t) (whblk V c t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    have hf : ¬isFirst (grid0.coords t) := fun h => h0 ((first_iff t).mp h)
    rw [inv_pos V c _ _ hz, totalAt_next V c t h0]
    by_cases h3 : t.val % 4 = 3
    · have hl : isLast (grid0.coords t) := (last_iff t).mpr h3
      rw [show (dat V c).leavesExact 5 t = owns (c : Thread nD τ) (ms5 t) fullShare ((dat V c).after 5 t) from by
        unfold Dat.leavesExact; rw [live5 t hl], after5, totalAt_next V c t h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (body_last c Set.univ (grid0.coords t) _ _ _ _ _ _ _ _ _ _ _ _ _ _ hf hl (xblk V c t) (wxblk V c t) (hblk V c t) (whblk V c t) (bblk V c t)
        (totalAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast (grid0.coords t) := fun h => h3 ((last_iff t).mp h)
      rw [Dat.leavesExact_idle (dat V c) 5 t (idle5 t hl) (noflush5 t hl)]
      iintro ⟨⟨HS, Hr, Hg⟩, Ho, ⟨%d0, H0⟩, ⟨%d1, H1⟩, ⟨%d2, H2⟩, ⟨%d3, H3⟩, ⟨%d4, H4⟩, ⟨%d5, H5⟩⟩
      iapply (body_mid c Set.univ (grid0.coords t) _ _ _ _ _ _ _ _ _ _ _ _ _ _ hf hl (xblk V c t) (wxblk V c t) (hblk V c t) (whblk V c t)
        (totalAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the call is the invariant before the first point, -/
theorem inv_in (c : Dev nD) : Pipeline.ΦA spec0 c ⊢ (dat V c).Φ 0 := by
  rw [show (dat V c).Φ 0 = inv V c 0 (Nat.zero_le _) from rfl, inv_zero V c 0 _ rfl]

/-- and after the last point the invariant gives it back, the total's value forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl]
  exact (inv_any V c _ _).trans (PhiA_close c)

end Data

end Cert.Kernel.Rnn

end
-- ==== Proof.BitsProjBody.lean ====
/-
  The output layer's kernel body at one grid point, as three triples.

  The body keeps a running total in a scratch buffer across the four blocks of the contracted axis. At the first block
  it clears the total; at every block it adds that block's product of the hidden-state block with the transposed
  weight block; at the last block it adds the bias row and stores the result block. Each triple says what the scratch
  (and, at the last block, the result's staging buffer) holds afterwards, as the body's own arithmetic applied to what
  the buffers held: `blockSum` is one block's update of the total, `withBias` the last step.
-/
import proofs.«111847_j33921651704507_1_alg».proof.Proof.Gen.Kernel.Launch
import proofs.«111847_j33921651704507_1_alg».proof.Proof.Gen.Kernel.Skeleton
import proofs.«111847_j33921651704507_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the contracted-axis coordinate is 0. -/
abbrev isFirst (i : grid1.Coords) : Prop :=
  (Scalar.cmpi .ne (Scalar.extui (Scalar.cmpi .eq (BitVec.ofNat 32 (i 1).val) 0#32)) 0#32) = 1#1
/-- The second branch's condition: the contracted-axis coordinate is the last one. -/
abbrev isLast (i : grid1.Coords) : Prop := k1_cond2 i = 1#1

/-- The zero offsets of a whole-block access, however spelt. -/
theorem off0 : (![0, 0] : Fin S1024x1024.rank → Nat) = fun _ => 0 := by
  funext a; match a with | ⟨0, _⟩ => rfl | ⟨1, _⟩ => rfl
theorem off0row : (![0, 0] : Fin S1x1024.rank → Nat) = fun _ => 0 := by
  funext a; match a with | ⟨0, _⟩ => rfl | ⟨1, _⟩ => rfl

/-- The cleared total. -/
abbrev cleared : Vec F S1024x1024 .f32 := k1_pay1 (F := F)
/-- One block's update: the total `s` plus the product of the hidden block `x` with the transposed weight block `w`. -/
abbrev blockSum (s : Vec F S1024x1024 .f32) (x w : Vec F S1024x1024 .bf16) : Vec F S1024x1024 .f32 := k1_pay2 s x w
/-- The last step: the total plus the bias row laid along the rows. -/
abbrev withBias (s : Vec F S1024x1024 .f32) (b : Vec F S1x1024 .f32) : Vec F S1024x1024 .f32 := k1_pay3 s b

set_option maxHeartbeats 1000000 in
/-- A middle block: the total is updated, nothing else changes. -/
theorem body_mid (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (arg6 : Memref sig .tc .vmem S1024x1024 .f32) (harg6 : arg6.IsWhole)
    (hc1 : ¬isFirst i) (hc2 : ¬isLast i)
    (x w : Vec F S1024x1024 .bf16) (s : Vec F S1024x1024 .f32) (K : PUnit → sProp 𝕄) :
    iprop(owns (c : Thread nD τ) arg2 fullShare x ∗ owns (c : Thread nD τ) arg3 fullShare w ∗ owns (c : Thread nD τ) arg6 fullShare s
        ∗ (iprop(owns (c : Thread nD τ) arg2 fullShare x ∗ owns (c : Thread nD τ) arg3 fullShare w
              ∗ owns (c : Thread nD τ) arg6 fullShare (blockSum s x w)) -∗ K ⟨⟩))
      ⊢ wp frame (wpE (defs₀ (F := F)) Variants.none c none) E (cc1__proj_kernel i arg2 harg2 arg3 harg3 arg4 harg4 arg5 harg5 arg6 harg6) K := by
  simp only [cc1__proj_kernel_eq_skeleton]; unfold cc1__proj_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  rw [View.read_writes_eq_canon _ _ _ (fun y => ⟨_, List.mem_singleton_self _, View.mem_set_unit_zero off0 inb_S1024x1024_S1024x1024_0_0 y⟩),
    View.canon_unit_zero off0]
  simp only [View.readAt_eq_ld, harg2.read_unread, harg3.read_unread, harg6.read_unread, View.ld_unit_zero (S := S1024x1024) off0]

set_option maxHeartbeats 1000000 in
/-- The first block: the total is cleared, then updated; what the scratch held before does not matter. -/
theorem body_first (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (arg6 : Memref sig .tc .vmem S1024x1024 .f32) (harg6 : arg6.IsWhole)
    (hc1 : isFirst i) (hc2 : ¬isLast i)
    (x w : Vec F S1024x1024 .bf16) (K : PUnit → sProp 𝕄) :
    iprop(owns (c : Thread nD τ) arg2 fullShare x ∗ owns (c : Thread nD τ) arg3 fullShare w ∗ (∃ d, owns (c : Thread nD τ) arg6 fullShare d)
        ∗ (iprop(owns (c : Thread nD τ) arg2 fullShare x ∗ owns (c : Thread nD τ) arg3 fullShare w
              ∗ owns (c : Thread nD τ) arg6 fullShare (blockSum (cleared (F := F)) x w)) -∗ K ⟨⟩))
      ⊢ wp frame (wpE (defs₀ (F := F)) Variants.none c none) E (cc1__proj_kernel i arg2 harg2 arg3 harg3 arg4 harg4 arg5 harg5 arg6 harg6) K := by
  simp only [cc1__proj_kernel_eq_skeleton]; unfold cc1__proj_kernel_skel
  unfold owns
  iintro ⟨⟨%f2, %hf2, H2⟩, ⟨%f3, %hf3, H3⟩, ⟨%d6, %f6, %hf6, H6⟩, Hk⟩
  obtain rfl := harg2.eq_unread hf2; obtain rfl := harg3.eq_unread hf3
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg2.read_unread, harg3.read_unread, View.ld_unit_zero (S := S1024x1024) off0,
    View.readCov_unit_zero (S := S1024x1024) _ off0]

set_option maxHeartbeats 1000000 in
/-- The last block: the total is updated, then the bias row is added to it and the sum stored as the result block. -/
theorem body_last (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (arg6 : Memref sig .tc .vmem S1024x1024 .f32) (harg6 : arg6.IsWhole)
    (hc1 : ¬isFirst i) (hc2 : isLast i)
    (x w : Vec F S1024x1024 .bf16) (b : Vec F S1x1024 .f32) (s : Vec F S1024x1024 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ owns (c : Thread nD τ) arg6 fullShare s
        ∗ (iprop(owns (c : Thread nD τ) arg2 fullShare x ∗ owns (c : Thread nD τ) arg3 fullShare w ∗ owns (c : Thread nD τ) arg4 fullShare b
              ∗ owns (c : Thread nD τ) arg5 fullShare (withBias (blockSum s x w) b)
              ∗ owns (c : Thread nD τ) arg6 fullShare (blockSum s x w)) -∗ K ⟨⟩))
      ⊢ wp frame (wpE (defs₀ (F := F)) Variants.none c none) E (cc1__proj_kernel i arg2 harg2 arg3 harg3 arg4 harg4 arg5 harg5 arg6 harg6) K := by
  simp only [cc1__proj_kernel_eq_skeleton]; unfold cc1__proj_kernel_skel
  unfold owns
  iintro ⟨⟨%f2, %hf2, H2⟩, ⟨%f3, %hf3, H3⟩, ⟨%f4, %hf4, H4⟩, ⟨%d5, %f5, %hf5, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.read_writes_eq_canon _ _ _ (fun y => ⟨_, List.mem_cons_self .., View.mem_set_unit_zero off0 inb_S1024x1024_S1024x1024_0_0 y⟩),
      View.canon_cons_unit_zero off0]
    simp only [View.readAt_eq_ld, harg2.read_unread, harg3.read_unread, harg4.read_unread, harg6.read_unread,
      View.ld_unit_zero (S := S1024x1024) off0, View.ld_unit_zero (S := S1x1024) off0row,
      View.readCov_unit_zero (S := S1024x1024) _ off0]
  iexists _; isplitr
  swap; · iexact H6
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg2.read_unread, harg3.read_unread, harg6.read_unread,
    View.ld_unit_zero (S := S1024x1024) off0]

end Cert.Kernel.Proj

end
-- ==== Proof.BitsProjData.lean ====
/-
  The output layer's call, point by point: what each window's block is, what the running total holds after each grid
  point, and that the kernel body, run at a point from the state the point before left, leaves exactly that.

  The grid runs over 4 row blocks and, fastest, the 4 blocks of the contracted axis: point t works on row block t / 4 and
  contracted block t % 4. The total kept in the scratch after point t is, by recursion on t, the update of the cleared
  total (at t % 4 = 0) or of the total the point before left (otherwise) by point t's blocks. The result block is stored
  only at t % 4 = 3, from that point's total and the bias row; at the other points its staging buffer is handed back
  as found.
-/
import proofs.«111847_j33921651704507_1_alg».proof.Proof.Gen.Kernel.Launch
import proofs.«111847_j33921651704507_1_alg».proof.Proof.Gen.Kernel.Skeleton
import proofs.«111847_j33921651704507_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111847_j33921651704507_1_alg».proof.Proof.BitsProjBody

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

-- The core's buffer contents when the call is entered: the parameter everything here is stated at.
variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The hidden-state block, the weight block and the bias row at point `t`, at their literal types. -/
abbrev hblk (c : Dev nD) (t : Fin cfg1.N) : Vec F S1024x1024 .bf16 := iblk V c 0 t
abbrev wblk (c : Dev nD) (t : Fin cfg1.N) : Vec F S1024x1024 .bf16 := iblk V c 1 t
abbrev bblk (c : Dev nD) (t : Fin cfg1.N) : Vec F S1x1024 .f32 := iblk V c 2 t

/-! ## The branch conditions and the idle points, decided over the grid -/

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last contracted block the result window is idle and not written back. -/
theorem idle3 : ∀ t : Fin cfg1.N, ¬isLast (grid1.coords t) → cfg1.idle 3 (grid1.coords t) = true := by decide +kernel
theorem noflush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The running total -/

/-- The total in the scratch after point `n`. -/
def totalAt (c : Dev nD) : (n : ℕ) → n < cfg1.N → Vec F S1024x1024 .f32
  | 0, hn => blockSum (cleared (F := F)) (hblk V c ⟨0, hn⟩) (wblk V c ⟨0, hn⟩)
  | n + 1, hn => blockSum (if (n + 1) % 4 = 0 then cleared (F := F) else totalAt c n (Nat.lt_of_succ_lt hn))
      (hblk V c ⟨n + 1, hn⟩) (wblk V c ⟨n + 1, hn⟩)

/-- At a first contracted block the total restarts from the cleared one. -/
theorem totalAt_first (c : Dev nD) (t : Fin cfg1.N) (h0 : t.val % 4 = 0) :
    totalAt V c t.val t.isLt = blockSum (cleared (F := F)) (hblk V c t) (wblk V c t) := by
  obtain ⟨n, hn⟩ := t
  cases n with
  | zero => rfl
  | succ n => exact (congrArg (fun s => blockSum s (hblk V c ⟨n + 1, hn⟩) (wblk V c ⟨n + 1, hn⟩)) (if_pos h0)).trans rfl

/-- At any other block it continues from what the point before left. -/
theorem totalAt_next (c : Dev nD) (t : Fin cfg1.N) (h0 : ¬t.val % 4 = 0) :
    totalAt V c t.val t.isLt
      = blockSum (totalAt V c (t.val - 1) (Nat.lt_of_le_of_lt (Nat.sub_le _ _) t.isLt)) (hblk V c t) (wblk V c t) := by
  obtain ⟨n, hn⟩ := t
  cases n with
  | zero => exact absurd (Nat.zero_mod _) h0
  | succ n => exact (congrArg (fun s => blockSum s (hblk V c ⟨n + 1, hn⟩) (wblk V c ⟨n + 1, hn⟩)) (if_neg h0)).trans rfl

/-! ## The invariant: the scratch at the running total -/

/-- The scratch the kernel carries between points. -/
abbrev scr : Memref sig .tc .vmem S1024x1024 .f32 := Memref.whole cc1_scratch0

/-- The core's other scoped buffers that this call stages nothing in, each at some contents. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- What the call is handed before its first point: the scratch at anything, the other scoped buffers, the generator register. -/
theorem PhiA_open (c : Dev nD) :
    (Pipeline.ΦA spec1 c : sProp 𝕄) ⊢ iprop((∃ d, owns (c : Thread nD τ) scr fullShare d) ∗ rest (F := F) c ∗ (∃ r, prngReg c r)) := by
  unfold Pipeline.ΦA rest; rw [scopedRest1_eq]
  iintro ⟨⟨R0, R1, R2, R3, R4, R5, R6, R7, R8, R9, R10, R11, R12, ⟨%f, HS⟩⟩, Hg⟩
  isplitl [HS]
  · iexists f; rw [owns_whole]; iexact HS
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact R12

/-- And given back after its last. -/
theorem PhiA_close (c : Dev nD) :
    iprop((∃ d, owns (c : Thread nD τ) scr fullShare d) ∗ rest (F := F) c ∗ (∃ r, prngReg c r)) ⊢ (Pipeline.ΦA spec1 c : sProp 𝕄) := by
  unfold Pipeline.ΦA rest; rw [scopedRest1_eq]
  iintro ⟨⟨%d, HS⟩, ⟨R0, R1, R2, R3, R4, R5, R6, R7, R8, R9, R10, R11, R12⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexists d; rw [← owns_whole]; iexact HS

/-- The invariant before point `n`: before the first point what the call was handed; afterwards the scratch at the
    total the point before left. -/
def inv (c : Dev nD) : (n : ℕ) → n ≤ cfg1.N → sProp 𝕄
  | 0, _ => Pipeline.ΦA spec1 c
  | n + 1, hn => iprop(owns (c : Thread nD τ) scr fullShare (totalAt V c n hn) ∗ rest (F := F) c ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) scr fullShare (totalAt V c n hn) ∗ rest (F := F) c ∗ (∃ r, prngReg c r)) := rfl
theorem inv_pos (c : Dev nD) (n : ℕ) (h : n ≤ cfg1.N) (hz : n ≠ 0) :
    inv V c n h = iprop(owns (c : Thread nD τ) scr fullShare (totalAt V c (n - 1) (by omega)) ∗ rest (F := F) c ∗ (∃ r, prngReg c r)) := by
  cases n with
  | zero => exact absurd rfl hz
  | succ n => rfl

/-- Whatever the point, the invariant holds the scratch at SOME contents. -/
theorem inv_any (c : Dev nD) (n : ℕ) (h : n ≤ cfg1.N) :
    inv V c n h ⊢ iprop((∃ d, owns (c : Thread nD τ) scr fullShare d) ∗ rest (F := F) c ∗ (∃ r, prngReg c r)) := by
  cases n with
  | zero => exact PhiA_open c
  | succ n =>
    rw [inv_succ]
    iintro ⟨HS, Hr, Hg⟩
    isplitl [HS]; · iexists _; iexact HS
    isplitl [Hr]; · iexact Hr
    iexact Hg

/-! ## The proof data -/

/-- The call's proof data on core `c`: the arrays as the call finds them; after the body at point `t` each input's
    buffer at its block and the result's at the total plus the bias row; the invariant above; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => withBias (totalAt V c t.val t.isLt) (bblk V c t)
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = withBias (totalAt V c t.val t.isLt) (bblk V c t) := by dsimp only [dat]
theorem before0 (c : Dev nD) (t : Fin cfg1.N) (d) : (dat V c).before 0 t d = iblk V c 0 t := before_in0 V (dat V c) (A_eq V c 0) (after0 V c) t d
theorem before1 (c : Dev nD) (t : Fin cfg1.N) (d) : (dat V c).before 1 t d = iblk V c 1 t := before_in1 V (dat V c) (A_eq V c 1) (after1 V c) t d
theorem before2 (c : Dev nD) (t : Fin cfg1.N) (d) : (dat V c).before 2 t d = iblk V c 2 t := before_in2 V (dat V c) (A_eq V c 2) (after2 V c) t d

/-! ## The body obligation -/

/-- Each window's current staging memref at point `t`, as the pipeline passes it. -/
abbrev ms0 (t : Fin cfg1.N) : Memref sig .tc .vmem S1024x1024 .bf16 := win1_0.stage (cfg1.slots t 0)
abbrev ms1 (t : Fin cfg1.N) : Memref sig .tc .vmem S1024x1024 .bf16 := win1_1.stage (cfg1.slots t 1)
abbrev ms2 (t : Fin cfg1.N) : Memref sig .tc .vmem S1x1024 .f32 := win1_2.stage (cfg1.slots t 2)
abbrev ms3 (t : Fin cfg1.N) : Memref sig .tc .vmem S1024x1024 .f32 := win1_3.stage (cfg1.slots t 3)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: by the contracted block the point is on, one of the three triples applies; the invariant
    hands it the scratch at what the point before left (at anything, before a first block) and takes it back at this
    point's total. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl,
    show (dat V c).Φ t.succ = inv V c (t.val + 1) t.isLt from rfl, inv_succ, inv_castSucc V c t,
    show (dat V c).leavesExact 0 t = owns (c : Thread nD τ) (ms0 t) fullShare ((dat V c).after 0 t) from by
      unfold Dat.leavesExact; rw [live0 t],
    show (dat V c).leavesExact 1 t = owns (c : Thread nD τ) (ms1 t) fullShare ((dat V c).after 1 t) from by
      unfold Dat.leavesExact; rw [live1 t],
    show (dat V c).leavesExact 2 t = owns (c : Thread nD τ) (ms2 t) fullShare ((dat V c).after 2 t) from by
      unfold Dat.leavesExact; rw [live2 t],
    after0, after1, after2]
  by_cases h0 : t.val % 4 = 0
  · have h3 : ¬t.val % 4 = 3 := by omega
    have hl : ¬isLast (grid1.coords t) := fun h => h3 ((last_iff t).mp h)
    rw [Dat.leavesExact_idle (dat V c) 3 t (idle3 t hl) (noflush3 t hl), totalAt_first V c t h0]
    iintro ⟨HΦ, Ho, ⟨%d0, H0⟩, ⟨%d1, H1⟩, ⟨%d2, H2⟩, ⟨%d3, H3⟩⟩
    ihave HΦ' := (inv_any V c t.val (Nat.le_of_lt t.isLt)) $$ HΦ
    icases HΦ' with ⟨HS, Hr, Hg⟩
    iapply (body_first c Set.univ (grid1.coords t) _ _ _ _ _ _ _ _ _ _ ((first_iff t).mpr h0) hl (hblk V c t) (wblk V c t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hf : ¬isFirst (grid1.coords t) := fun h => h0 ((first_iff t).mp h)
    rw [inv_pos V c _ _ hz, totalAt_next V c t h0]
    by_cases h3 : t.val % 4 = 3
    · have hl : isLast (grid1.coords t) := (last_iff t).mpr h3
      rw [show (dat V c).leavesExact 3 t = owns (c : Thread nD τ) (ms3 t) fullShare ((dat V c).after 3 t) from by
        unfold Dat.leavesExact; rw [live3 t hl], after3, totalAt_next V c t h0]
      iintro ⟨⟨HS, Hr, Hg⟩, Ho, ⟨%d0, H0⟩, ⟨%d1, H1⟩, ⟨%d2, H2⟩, ⟨%d3, H3⟩⟩
      iapply (body_last c Set.univ (grid1.coords t) _ _ _ _ _ _ _ _ _ _ hf hl (hblk V c t) (wblk V c t) (bblk V c t)
        (totalAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hl : ¬isLast (grid1.coords t) := fun h => h3 ((last_iff t).mp h)
      rw [Dat.leavesExact_idle (dat V c) 3 t (idle3 t hl) (noflush3 t hl)]
      iintro ⟨⟨HS, Hr, Hg⟩, Ho, ⟨%d0, H0⟩, ⟨%d1, H1⟩, ⟨%d2, H2⟩, ⟨%d3, H3⟩⟩
      iapply (body_mid c Set.univ (grid1.coords t) _ _ _ _ _ _ _ _ _ _ hf hl (hblk V c t) (wblk V c t)
        (totalAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point, -/
theorem inv_in (c : Dev nD) : Pipeline.ΦA spec1 c ⊢ (dat V c).Φ 0 := by
  rw [show (dat V c).Φ 0 = inv V c 0 (Nat.zero_le _) from rfl, inv_zero V c 0 _ rfl]

/-- and after the last point the invariant gives it back, the total's value forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl]
  exact (inv_any V c _ _).trans (PhiA_close c)

end Data

end Cert.Kernel.Proj

end
-- ==== Proof.BitsRun.lean ====
/-
  The whole program: host operations, the recurrent cell's call, host operations, the output layer's call.

  Between two items every unscoped buffer of the core holds known contents: the launch memory, then what the first host
  stretch writes (the arguments narrowed, the bias as a row), then the first call's result array at what its write-backs
  leave and everything else as before, then what the second host stretch writes, then the second call's result array at
  what its write-backs leave. Each call is entered from those contents and left at the next ones; in between its scratch
  total lives in the call's invariant. The run ends with every unscoped buffer at the last contents; the arguments are
  among the buffers nothing wrote, and the result is the second call's result array.
-/
import proofs.«111847_j33921651704507_1_alg».proof.Proof.Gen.Kernel.Launch
import proofs.«111847_j33921651704507_1_alg».proof.Proof.Gen.Kernel.Skeleton
import proofs.«111847_j33921651704507_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111847_j33921651704507_1_alg».proof.Proof.Gen.Kernel.Regions
import proofs.«111847_j33921651704507_1_alg».proof.Proof.BitsRnnData
import proofs.«111847_j33921651704507_1_alg».proof.Proof.BitsProjData

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the first call: its arrays at what the write-backs leave, every other buffer as before. -/
def W2 (c : Dev nD) : Valuation τ sig (Elt F) :=
  Pipeline.withArrays spec0 c (W1 m ρ c) fun w => (Rnn.dat (V1 m ρ) c).arrAt w cfg0.N
theorem W2_arr (c : Dev nD) (w : Fin cfg0.W) :
    W2 m ρ c (Proc.devRef .tc (Pipeline.arrRef spec0 w)) = (Rnn.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Rnn.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (Proj.dat (V3 m ρ) c).arrAt w cfg1.N
theorem W4_arr (c : Dev nD) (w : Fin cfg1.W) :
    W4 m ρ c (Proc.devRef .tc (Pipeline.arrRef spec1 w)) = (Proj.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Proj.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer neither host stretch writes and neither call stages reaches the end as launched. -/
theorem W4_kept (c : Dev nD) (b : Ref sig .tc) (h1 : ∀ w, Pipeline.arrRef spec1 w ≠ b) (hh1 : b ∉ hostOps1_W)
    (h0 : ∀ w, Pipeline.arrRef spec0 w ≠ b) (hh0 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_writes_sub hostOps1 _ hostOps1_writes hh1
    _ = W1 m ρ c (Proc.devRef .tc b) := W2_of_ne m ρ c b h0
    _ = W0 m ρ c (Proc.devRef .tc b) := StableHlo.after_of_writes_sub hostOps0 _ hostOps0_writes hh0
    _ = m ((c : Thread nD τ).loc b) := rfl

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)

/-! ## The proof data family and the thread state -/

/-- No call has a prefetched table. -/
abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => Rnn.dat (V1 m ρ) c
  | ⟨1, _⟩ => fun c => Proj.dat (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W4 m ρ c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

-- unification with the pinned configuration may unfold plain definitions in a metavariable's type
set_option backward.isDefEq.respectTransparency.types false in
/-- Call 0 as a segment: entered with every unscoped buffer at `W1`, left with them at `W2`. Its arrays are
    split out of the unscoped buffers at entry and put back at their exit contents; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rnn.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from Rnn.inv_in (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Rnn.inv_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 1 as a segment: entered with every unscoped buffer at `W3`, left with them at `W4`. Its arrays are
    split out of the unscoped buffers at entry and put back at their exit contents; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from Proj.inv_in (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Proj.inv_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, faulting nowhere, with
    every unscoped buffer of every core at the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The result array at the end is what the output layer's write-backs leave. -/
theorem W4_result (c : Dev nD) : W4 m ρ c (Proc.devRef .tc main_v8) = (Proj.dat (V3 m ρ) c).arrAt 3 cfg1.N :=
  W4_arr m ρ c 3

/-- The run with the result named and the arguments unchanged. -/
theorem run_named : θ_run defs (onTc (τ := τ) (main (F := F))) ⟨m, fun _ => 0, ρ⟩ (fun r => ∀ c : Dev nD,
      r.2.mem ((c.tc : Thread nD τ).loc main_v8) = (Proj.dat (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v8 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The frame: the program runs to the end and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c => (h c).2) (run_named m ρ)

end Cert.Kernel.Whole

end
-- ==== Proof.RnnBody.lean ====
/-
  The recurrent cell's kernel body at one grid point, as three triples.

  The body keeps a running total in a scratch buffer across the four blocks of the contracted axis. At the first block
  it clears the total; at every block it adds that block's two products — the input block with its transposed weight
  block, and the hidden-state block with its transposed weight block —; at the last block it adds the bias row, applies
  tanh and stores the result block in the narrower format. Each triple says what the scratch (and, at the last block,
  the result's staging buffer) holds afterwards, as the body's own arithmetic applied to what the buffers held:
  `blockSum` is one block's update of the total, `activated` the last step.
-/
import proofs.«111847_j33921651704507_1_alg».proof.Proof.Gen.KernelIdeal.Launch
import proofs.«111847_j33921651704507_1_alg».proof.Proof.Gen.KernelIdeal.Skeleton
import proofs.«111847_j33921651704507_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the contracted-axis coordinate is 0. -/
abbrev isFirst (i : grid0.Coords) : Prop :=
  (Scalar.cmpi .ne (Scalar.extui (Scalar.cmpi .eq (BitVec.ofNat 32 (i 2).val) 0#32)) 0#32) = 1#1
/-- The second branch's condition: the contracted-axis coordinate is the last one. -/
abbrev isLast (i : grid0.Coords) : Prop := k0_cond2 i = 1#1

/-- The zero offsets of a whole-block access, however spelt. -/
theorem off0 : (![0, 0] : Fin S1024x1024.rank → Nat) = fun _ => 0 := by
  funext a; match a with | ⟨0, _⟩ => rfl | ⟨1, _⟩ => rfl
theorem off0row : (![0, 0] : Fin S1x1024.rank → Nat) = fun _ => 0 := by
  funext a; match a with | ⟨0, _⟩ => rfl | ⟨1, _⟩ => rfl

/-- The cleared total. -/
abbrev cleared : Vec F S1024x1024 .f32 := k0_pay1 (F := F)
/-- One block's update: the total `s` plus the product of the input block `x` with the transposed weight block `wx`
    plus the product of the hidden-state block `h` with the transposed weight block `wh`. -/
abbrev blockSum (s : Vec F S1024x1024 .f32) (x wx h wh : Vec F S1024x1024 .bf16) : Vec F S1024x1024 .f32 := k0_pay2 s x wx h wh
/-- The last step: tanh of the total plus the bias row laid along the rows, in the narrower format. -/
abbrev activated (s : Vec F S1024x1024 .f32) (b : Vec F S1x1024 .f32) : Vec F S1024x1024 .bf16 := k0_pay3 s b

set_option maxHeartbeats 1000000 in
/-- A middle block: the total is updated, nothing else changes. -/
theorem body_mid (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc1 : ¬isFirst i) (hc2 : ¬isLast i)
    (x wx h wh : Vec F S1024x1024 .bf16) (s : Vec F S1024x1024 .f32) (K : PUnit → sProp 𝕄) :
    iprop(owns (c : Thread nD τ) arg3 fullShare x ∗ owns (c : Thread nD τ) arg4 fullShare wx ∗ owns (c : Thread nD τ) arg5 fullShare h ∗ owns (c : Thread nD τ) arg6 fullShare wh ∗ owns (c : Thread nD τ) arg9 fullShare s
        ∗ (iprop(owns (c : Thread nD τ) arg3 fullShare x ∗ owns (c : Thread nD τ) arg4 fullShare wx ∗ owns (c : Thread nD τ) arg5 fullShare h ∗ owns (c : Thread nD τ) arg6 fullShare wh
              ∗ owns (c : Thread nD τ) arg9 fullShare (blockSum s x wx h wh)) -∗ K ⟨⟩))
      ⊢ wp frame (wpE (defs₀ (F := F)) Variants.none c none) E (cc0__rnn_kernel i arg3 harg3 arg4 harg4 arg5 harg5 arg6 harg6 arg7 harg7 arg8 harg8 arg9 harg9) K := by
  simp only [cc0__rnn_kernel_eq_skeleton]; unfold cc0__rnn_kernel_skel
  unfold owns
  iintro ⟨⟨%f3, %hf3, H3⟩, ⟨%f4, %hf4, H4⟩, ⟨%f5, %hf5, H5⟩, ⟨%f6, %hf6, H6⟩, ⟨%f9, %hf9, H9⟩, Hk⟩
  obtain rfl := harg3.eq_unread hf3; obtain rfl := harg4.eq_unread hf4; obtain rfl := harg5.eq_unread hf5
  obtain rfl := harg6.eq_unread hf6; obtain rfl := harg9.eq_unread hf9
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg3.read_unread, harg4.read_unread, harg5.read_unread, harg6.read_unread, harg9.read_unread,
    View.ld_unit_zero (S := S1024x1024) off0, View.ld_unit_zero (S := S1x1024) off0row,
    View.readCov_unit_zero (S := S1024x1024) _ off0]

set_option maxHeartbeats 1000000 in
/-- The first block: the total is cleared, then updated; what the scratch held before does not matter. -/
theorem body_first (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc1 : isFirst i) (hc2 : ¬isLast i)
    (x wx h wh : Vec F S1024x1024 .bf16) (K : PUnit → sProp 𝕄) :
    iprop(owns (c : Thread nD τ) arg3 fullShare x ∗ owns (c : Thread nD τ) arg4 fullShare wx ∗ owns (c : Thread nD τ) arg5 fullShare h ∗ owns (c : Thread nD τ) arg6 fullShare wh ∗ (∃ d, owns (c : Thread nD τ) arg9 fullShare d)
        ∗ (iprop(owns (c : Thread nD τ) arg3 fullShare x ∗ owns (c : Thread nD τ) arg4 fullShare wx ∗ owns (c : Thread nD τ) arg5 fullShare h ∗ owns (c : Thread nD τ) arg6 fullShare wh
              ∗ owns (c : Thread nD τ) arg9 fullShare (blockSum (cleared (F := F)) x wx h wh)) -∗ K ⟨⟩))
      ⊢ wp frame (wpE (defs₀ (F := F)) Variants.none c none) E (cc0__rnn_kernel i arg3 harg3 arg4 harg4 arg5 harg5 arg6 harg6 arg7 harg7 arg8 harg8 arg9 harg9) K := by
  simp only [cc0__rnn_kernel_eq_skeleton]; unfold cc0__rnn_kernel_skel
  unfold owns
  iintro ⟨⟨%f3, %hf3, H3⟩, ⟨%f4, %hf4, H4⟩, ⟨%f5, %hf5, H5⟩, ⟨%f6, %hf6, H6⟩, ⟨%d9, %f9, %hf9, H9⟩, Hk⟩
  obtain rfl := harg3.eq_unread hf3; obtain rfl := harg4.eq_unread hf4; obtain rfl := harg5.eq_unread hf5
  obtain rfl := harg6.eq_unread hf6
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg3.read_unread, harg4.read_unread, harg5.read_unread, harg6.read_unread,
    View.ld_unit_zero (S := S1024x1024) off0, View.ld_unit_zero (S := S1x1024) off0row,
    View.readCov_unit_zero (S := S1024x1024) _ off0]

set_option maxHeartbeats 1000000 in
/-- The last block: the total is updated, then the bias row is added, tanh applied and the result block stored. -/
theorem body_last (c : Dev nD) (E : Set ℕ) (i : grid0.Coords)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc1 : ¬isFirst i) (hc2 : isLast i)
    (x wx h wh : Vec F S1024x1024 .bf16) (b : Vec F S1x1024 .f32) (s : Vec F S1024x1024 .f32) (K : PUnit → sProp 𝕄) :
    iprop(owns (c : Thread nD τ) arg3 fullShare x ∗ owns (c : Thread nD τ) arg4 fullShare wx ∗ owns (c : Thread nD τ) arg5 fullShare h ∗ owns (c : Thread nD τ) arg6 fullShare wh ∗ owns (c : Thread nD τ) arg7 fullShare b
        ∗ (∃ d, owns (c : Thread nD τ) arg8 fullShare d) ∗ owns (c : Thread nD τ) arg9 fullShare s
        ∗ (iprop(owns (c : Thread nD τ) arg3 fullShare x ∗ owns (c : Thread nD τ) arg4 fullShare wx ∗ owns (c : Thread nD τ) arg5 fullShare h ∗ owns (c : Thread nD τ) arg6 fullShare wh ∗ owns (c : Thread nD τ) arg7 fullShare b
              ∗ owns (c : Thread nD τ) arg8 fullShare (activated (blockSum s x wx h wh) b)
              ∗ owns (c : Thread nD τ) arg9 fullShare (blockSum s x wx h wh)) -∗ K ⟨⟩))
      ⊢ wp frame (wpE (defs₀ (F := F)) Variants.none c none) E (cc0__rnn_kernel i arg3 harg3 arg4 harg4 arg5 harg5 arg6 harg6 arg7 harg7 arg8 harg8 arg9 harg9) K := by
  simp only [cc0__rnn_kernel_eq_skeleton]; unfold cc0__rnn_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc1 | exact hc2)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [View.read_writes_eq_canon _ _ _ (fun y => ⟨_, List.mem_cons_self .., View.mem_set_unit_zero off0 inb_S1024x1024_S1024x1024_0_0 y⟩),
      View.canon_cons_unit_zero off0]
    simp only [View.readAt_eq_ld, harg3.read_unread, harg4.read_unread, harg5.read_unread, harg6.read_unread, harg7.read_unread, harg9.read_unread,
      View.ld_unit_zero (S := S1024x1024) off0, View.ld_unit_zero (S := S1x1024) off0row,
      View.readCov_unit_zero (S := S1024x1024) _ off0]
  iexists _; isplitr
  swap; · iexact H9
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg3.read_unread, harg4.read_unread, harg5.read_unread, harg6.read_unread, harg9.read_unread,
    View.ld_unit_zero (S := S1024x1024) off0, View.ld_unit_zero (S := S1x1024) off0row,
    View.readCov_unit_zero (S := S1024x1024) _ off0]

end Cert.KernelIdeal.Rnn

end
-- ==== Proof.RnnData.lean ====
/-
  The recurrent cell's call, point by point: what each window's block is, what the running total holds after each grid
  point, and that the kernel body, run at a point from the state the point before left, leaves exactly that.

  The grid runs over 4 row blocks, 4 column blocks and, fastest, the 4 blocks of the contracted axis: point t works on
  contracted block t % 4. The total kept in the scratch after point t is, by recursion on t, the update of the cleared
  total (at t % 4 = 0) or of the total the point before left (otherwise) by point t's four blocks. The result block is
  stored only at t % 4 = 3, from that point's total and the bias row; at the other points its staging buffer is handed
  back as found.
-/
import proofs.«111847_j33921651704507_1_alg».proof.Proof.Gen.KernelIdeal.Launch
import proofs.«111847_j33921651704507_1_alg».proof.Proof.Gen.KernelIdeal.Skeleton
import proofs.«111847_j33921651704507_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111847_j33921651704507_1_alg».proof.Proof.RnnBody

set_option maxRecDepth 16384

noncomputable section

namespace Cert.KernelIdeal.Rnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

-- The core's buffer contents when the call is entered: the parameter everything here is stated at.
variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The input windows' blocks at point `t`, at their literal types. -/
abbrev xblk (c : Dev nD) (t : Fin cfg0.N) : Vec F S1024x1024 .bf16 := iblk V c 0 t
abbrev wxblk (c : Dev nD) (t : Fin cfg0.N) : Vec F S1024x1024 .bf16 := iblk V c 1 t
abbrev hblk (c : Dev nD) (t : Fin cfg0.N) : Vec F S1024x1024 .bf16 := iblk V c 2 t
abbrev whblk (c : Dev nD) (t : Fin cfg0.N) : Vec F S1024x1024 .bf16 := iblk V c 3 t
abbrev bblk (c : Dev nD) (t : Fin cfg0.N) : Vec F S1x1024 .f32 := iblk V c 4 t

/-! ## The branch conditions and the idle points, decided over the grid -/

theorem first_iff : ∀ t : Fin cfg0.N, isFirst (grid0.coords t) ↔ t.val % 4 = 0 :=
  (by decide +kernel : ∀ t : Fin grid0.N, isFirst (grid0.coords t) ↔ t.val % 4 = 0)
theorem last_iff : ∀ t : Fin cfg0.N, isLast (grid0.coords t) ↔ t.val % 4 = 3 :=
  (by decide +kernel : ∀ t : Fin grid0.N, isLast (grid0.coords t) ↔ t.val % 4 = 3)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last contracted block the result window is idle and not written back. -/
theorem idle5 : ∀ t : Fin cfg0.N, ¬isLast (grid0.coords t) → cfg0.idle 5 (grid0.coords t) = true := by decide +kernel
theorem noflush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel

/-! ## The running total -/

/-- The total in the scratch after point `n`. -/
def totalAt (c : Dev nD) : (n : ℕ) → n < cfg0.N → Vec F S1024x1024 .f32
  | 0, hn => blockSum (cleared (F := F)) (xblk V c ⟨0, hn⟩) (wxblk V c ⟨0, hn⟩) (hblk V c ⟨0, hn⟩) (whblk V c ⟨0, hn⟩)
  | n + 1, hn => blockSum (if (n + 1) % 4 = 0 then cleared (F := F) else totalAt c n (Nat.lt_of_succ_lt hn))
      (xblk V c ⟨n + 1, hn⟩) (wxblk V c ⟨n + 1, hn⟩) (hblk V c ⟨n + 1, hn⟩) (whblk V c ⟨n + 1, hn⟩)

/-- At a first contracted block the total restarts from the cleared one. -/
theorem totalAt_first (c : Dev nD) (t : Fin cfg0.N) (h0 : t.val % 4 = 0) :
    totalAt V c t.val t.isLt = blockSum (cleared (F := F)) (xblk V c t) (wxblk V c t) (hblk V c t) (whblk V c t) := by
  obtain ⟨n, hn⟩ := t
  cases n with
  | zero => rfl
  | succ n => exact (congrArg (fun s => blockSum s (xblk V c ⟨n + 1, hn⟩) (wxblk V c ⟨n + 1, hn⟩) (hblk V c ⟨n + 1, hn⟩) (whblk V c ⟨n + 1, hn⟩)) (if_pos h0)).trans rfl

/-- At any other block it continues from what the point before left. -/
theorem totalAt_next (c : Dev nD) (t : Fin cfg0.N) (h0 : ¬t.val % 4 = 0) :
    totalAt V c t.val t.isLt
      = blockSum (totalAt V c (t.val - 1) (Nat.lt_of_le_of_lt (Nat.sub_le _ _) t.isLt)) (xblk V c t) (wxblk V c t) (hblk V c t) (whblk V c t) := by
  obtain ⟨n, hn⟩ := t
  cases n with
  | zero => exact absurd (Nat.zero_mod _) h0
  | succ n => exact (congrArg (fun s => blockSum s (xblk V c ⟨n + 1, hn⟩) (wxblk V c ⟨n + 1, hn⟩) (hblk V c ⟨n + 1, hn⟩) (whblk V c ⟨n + 1, hn⟩)) (if_neg h0)).trans rfl

/-! ## The invariant: the scratch at the running total -/

/-- The scratch the kernel carries between points. -/
abbrev scr : Memref sig .tc .vmem S1024x1024 .f32 := Memref.whole cc0_scratch0

/-- The core's other scoped buffers that this call stages nothing in, each at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the call is handed before its first point: the scratch at anything, the other scoped buffers, the generator register. -/
theorem PhiA_open (c : Dev nD) :
    (Pipeline.ΦA spec0 c : sProp 𝕄) ⊢ iprop((∃ d, owns (c : Thread nD τ) scr fullShare d) ∗ rest (F := F) c ∗ (∃ r, prngReg c r)) := by
  unfold Pipeline.ΦA rest; rw [scopedRest0_eq]
  iintro ⟨⟨⟨%f, HS⟩, Hr⟩, Hg⟩
  isplitl [HS]
  · iexists f; rw [owns_whole]; iexact HS
  isplitl [Hr]; · iexact Hr
  iexact Hg

/-- And given back after its last. -/
theorem PhiA_close (c : Dev nD) :
    iprop((∃ d, owns (c : Thread nD τ) scr fullShare d) ∗ rest (F := F) c ∗ (∃ r, prngReg c r)) ⊢ (Pipeline.ΦA spec0 c : sProp 𝕄) := by
  unfold Pipeline.ΦA rest; rw [scopedRest0_eq]
  iintro ⟨⟨%d, HS⟩, Hr, Hg⟩
  isplitr [Hg]
  swap; · iexact Hg
  isplitl [HS]
  · iexists d; rw [← owns_whole]; iexact HS
  iexact Hr

/-- The invariant before point `n`: before the first point what the call was handed; afterwards the scratch at the
    total the point before left. -/
def inv (c : Dev nD) : (n : ℕ) → n ≤ cfg0.N → sProp 𝕄
  | 0, _ => Pipeline.ΦA spec0 c
  | n + 1, hn => iprop(owns (c : Thread nD τ) scr fullShare (totalAt V c n hn) ∗ rest (F := F) c ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) scr fullShare (totalAt V c n hn) ∗ rest (F := F) c ∗ (∃ r, prngReg c r)) := rfl
theorem inv_pos (c : Dev nD) (n : ℕ) (h : n ≤ cfg0.N) (hz : n ≠ 0) :
    inv V c n h = iprop(owns (c : Thread nD τ) scr fullShare (totalAt V c (n - 1) (by omega)) ∗ rest (F := F) c ∗ (∃ r, prngReg c r)) := by
  cases n with
  | zero => exact absurd rfl hz
  | succ n => rfl

/-- Whatever the point, the invariant holds the scratch at SOME contents. -/
theorem inv_any (c : Dev nD) (n : ℕ) (h : n ≤ cfg0.N) :
    inv V c n h ⊢ iprop((∃ d, owns (c : Thread nD τ) scr fullShare d) ∗ rest (F := F) c ∗ (∃ r, prngReg c r)) := by
  cases n with
  | zero => exact PhiA_open c
  | succ n =>
    rw [inv_succ]
    iintro ⟨HS, Hr, Hg⟩
    isplitl [HS]; · iexists _; iexact HS
    isplitl [Hr]; · iexact Hr
    iexact Hg

/-! ## The proof data -/

/-- The call's proof data on core `c`: the arrays as the call finds them; after the body at point `t` each input's
    buffer at its block and the result's at tanh of the total plus the bias row; the invariant above; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => activated (totalAt V c t.val t.isLt) (bblk V c t)
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = activated (totalAt V c t.val t.isLt) (bblk V c t) := by dsimp only [dat]
theorem before0 (c : Dev nD) (t : Fin cfg0.N) (d) : (dat V c).before 0 t d = iblk V c 0 t := before_in0 V (dat V c) (A_eq V c 0) (after0 V c) t d
theorem before1 (c : Dev nD) (t : Fin cfg0.N) (d) : (dat V c).before 1 t d = iblk V c 1 t := before_in1 V (dat V c) (A_eq V c 1) (after1 V c) t d
theorem before2 (c : Dev nD) (t : Fin cfg0.N) (d) : (dat V c).before 2 t d = iblk V c 2 t := before_in2 V (dat V c) (A_eq V c 2) (after2 V c) t d
theorem before3 (c : Dev nD) (t : Fin cfg0.N) (d) : (dat V c).before 3 t d = iblk V c 3 t := before_in3 V (dat V c) (A_eq V c 3) (after3 V c) t d
theorem before4 (c : Dev nD) (t : Fin cfg0.N) (d) : (dat V c).before 4 t d = iblk V c 4 t := before_in4 V (dat V c) (A_eq V c 4) (after4 V c) t d

/-! ## The body obligation -/

/-- Each window's current staging memref at point `t`, as the pipeline passes it. -/
abbrev ms0 (t : Fin cfg0.N) : Memref sig .tc .vmem S1024x1024 .bf16 := win0_0.stage (cfg0.slots t 0)
abbrev ms1 (t : Fin cfg0.N) : Memref sig .tc .vmem S1024x1024 .bf16 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1x1024 .f32 := win0_4.stage (cfg0.slots t 4)
abbrev ms5 (t : Fin cfg0.N) : Memref sig .tc .vmem S1024x1024 .bf16 := win0_5.stage (cfg0.slots t 5)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t)

set_option maxHeartbeats 4000000 in
/-- The body at any point: by the contracted block the point is on, one of the three triples applies; the invariant
    hands it the scratch at what the point before left (at anything, before a first block) and takes it back at this
    point's total. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).owesAt () t.succ = (dat V c).owesAt () t.castSucc from rfl,
    show (dat V c).Φ t.succ = inv V c (t.val + 1) t.isLt from rfl, inv_succ, inv_castSucc V c t,
    show (dat V c).leavesExact 0 t = owns (c : Thread nD τ) (ms0 t) fullShare ((dat V c).after 0 t) from by
      unfold Dat.leavesExact; rw [live0 t],
    show (dat V c).leavesExact 1 t = owns (c : Thread nD τ) (ms1 t) fullShare ((dat V c).after 1 t) from by
      unfold Dat.leavesExact; rw [live1 t],
    show (dat V c).leavesExact 2 t = owns (c : Thread nD τ) (ms2 t) fullShare ((dat V c).after 2 t) from by
      unfold Dat.leavesExact; rw [live2 t],
    show (dat V c).leavesExact 3 t = owns (c : Thread nD τ) (ms3 t) fullShare ((dat V c).after 3 t) from by
      unfold Dat.leavesExact; rw [live3 t],
    show (dat V c).leavesExact 4 t = owns (c : Thread nD τ) (ms4 t) fullShare ((dat V c).after 4 t) from by
      unfold Dat.leavesExact; rw [live4 t],
    after0, after1, after2, after3, after4]
  by_cases h0 : t.val % 4 = 0
  · have h3 : ¬t.val % 4 = 3 := by omega
    have hl : ¬isLast (grid0.coords t) := fun h => h3 ((last_iff t).mp h)
    rw [Dat.leavesExact_idle (dat V c) 5 t (idle5 t hl) (noflush5 t hl), totalAt_first V c t h0]
    iintro ⟨HΦ, Ho, ⟨%d0, H0⟩, ⟨%d1, H1⟩, ⟨%d2, H2⟩, ⟨%d3, H3⟩, ⟨%d4, H4⟩, ⟨%d5, H5⟩⟩
    ihave HΦ' := (inv_any V c t.val (Nat.le_of_lt t.isLt)) $$ HΦ
    icases HΦ' with ⟨HS, Hr, Hg⟩
    iapply (body_first c Set.univ (grid0.coords t) _ _ _ _ _ _ _ _ _ _ _ _ _ _ ((first_iff t).mpr h0) hl (xblk V c t) (wxblk V c t) (hblk V c t) (whblk V c t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    have hf : ¬isFirst (grid0.coords t) := fun h => h0 ((first_iff t).mp h)
    rw [inv_pos V c _ _ hz, totalAt_next V c t h0]
    by_cases h3 : t.val % 4 = 3
    · have hl : isLast (grid0.coords t) := (last_iff t).mpr h3
      rw [show (dat V c).leavesExact 5 t = owns (c : Thread nD τ) (ms5 t) fullShare ((dat V c).after 5 t) from by
        unfold Dat.leavesExact; rw [live5 t hl], after5, totalAt_next V c t h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (body_last c Set.univ (grid0.coords t) _ _ _ _ _ _ _ _ _ _ _ _ _ _ hf hl (xblk V c t) (wxblk V c t) (hblk V c t) (whblk V c t) (bblk V c t)
        (totalAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬isLast (grid0.coords t) := fun h => h3 ((last_iff t).mp h)
      rw [Dat.leavesExact_idle (dat V c) 5 t (idle5 t hl) (noflush5 t hl)]
      iintro ⟨⟨HS, Hr, Hg⟩, Ho, ⟨%d0, H0⟩, ⟨%d1, H1⟩, ⟨%d2, H2⟩, ⟨%d3, H3⟩, ⟨%d4, H4⟩, ⟨%d5, H5⟩⟩
      iapply (body_mid c Set.univ (grid0.coords t) _ _ _ _ _ _ _ _ _ _ _ _ _ _ hf hl (xblk V c t) (wxblk V c t) (hblk V c t) (whblk V c t)
        (totalAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the call is the invariant before the first point, -/
theorem inv_in (c : Dev nD) : Pipeline.ΦA spec0 c ⊢ (dat V c).Φ 0 := by
  rw [show (dat V c).Φ 0 = inv V c 0 (Nat.zero_le _) from rfl, inv_zero V c 0 _ rfl]

/-- and after the last point the invariant gives it back, the total's value forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl]
  exact (inv_any V c _ _).trans (PhiA_close c)

end Data

end Cert.KernelIdeal.Rnn

end
-- ==== Proof.ProjBody.lean ====
/-
  The output layer's kernel body at one grid point, as three triples.

  The body keeps a running total in a scratch buffer across the four blocks of the contracted axis. At the first block
  it clears the total; at every block it adds that block's product of the hidden-state block with the transposed
  weight block; at the last block it adds the bias row and stores the result block. Each triple says what the scratch
  (and, at the last block, the result's staging buffer) holds afterwards, as the body's own arithmetic applied to what
  the buffers held: `blockSum` is one block's update of the total, `withBias` the last step.
-/
import proofs.«111847_j33921651704507_1_alg».proof.Proof.Gen.KernelIdeal.Launch
import proofs.«111847_j33921651704507_1_alg».proof.Proof.Gen.KernelIdeal.Skeleton
import proofs.«111847_j33921651704507_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the contracted-axis coordinate is 0. -/
abbrev isFirst (i : grid1.Coords) : Prop :=
  (Scalar.cmpi .ne (Scalar.extui (Scalar.cmpi .eq (BitVec.ofNat 32 (i 1).val) 0#32)) 0#32) = 1#1
/-- The second branch's condition: the contracted-axis coordinate is the last one. -/
abbrev isLast (i : grid1.Coords) : Prop := k1_cond2 i = 1#1

/-- The zero offsets of a whole-block access, however spelt. -/
theorem off0 : (![0, 0] : Fin S1024x1024.rank → Nat) = fun _ => 0 := by
  funext a; match a with | ⟨0, _⟩ => rfl | ⟨1, _⟩ => rfl
theorem off0row : (![0, 0] : Fin S1x1024.rank → Nat) = fun _ => 0 := by
  funext a; match a with | ⟨0, _⟩ => rfl | ⟨1, _⟩ => rfl

/-- The cleared total. -/
abbrev cleared : Vec F S1024x1024 .f32 := k1_pay1 (F := F)
/-- One block's update: the total `s` plus the product of the hidden block `x` with the transposed weight block `w`. -/
abbrev blockSum (s : Vec F S1024x1024 .f32) (x w : Vec F S1024x1024 .bf16) : Vec F S1024x1024 .f32 := k1_pay2 s x w
/-- The last step: the total plus the bias row laid along the rows. -/
abbrev withBias (s : Vec F S1024x1024 .f32) (b : Vec F S1x1024 .f32) : Vec F S1024x1024 .f32 := k1_pay3 s b

set_option maxHeartbeats 1000000 in
/-- A middle block: the total is updated, nothing else changes. -/
theorem body_mid (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (arg6 : Memref sig .tc .vmem S1024x1024 .f32) (harg6 : arg6.IsWhole)
    (hc1 : ¬isFirst i) (hc2 : ¬isLast i)
    (x w : Vec F S1024x1024 .bf16) (s : Vec F S1024x1024 .f32) (K : PUnit → sProp 𝕄) :
    iprop(owns (c : Thread nD τ) arg2 fullShare x ∗ owns (c : Thread nD τ) arg3 fullShare w ∗ owns (c : Thread nD τ) arg6 fullShare s
        ∗ (iprop(owns (c : Thread nD τ) arg2 fullShare x ∗ owns (c : Thread nD τ) arg3 fullShare w
              ∗ owns (c : Thread nD τ) arg6 fullShare (blockSum s x w)) -∗ K ⟨⟩))
      ⊢ wp frame (wpE (defs₀ (F := F)) Variants.none c none) E (cc1__proj_kernel i arg2 harg2 arg3 harg3 arg4 harg4 arg5 harg5 arg6 harg6) K := by
  simp only [cc1__proj_kernel_eq_skeleton]; unfold cc1__proj_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  rw [View.read_writes_eq_canon _ _ _ (fun y => ⟨_, List.mem_singleton_self _, View.mem_set_unit_zero off0 inb_S1024x1024_S1024x1024_0_0 y⟩),
    View.canon_unit_zero off0]
  simp only [View.readAt_eq_ld, harg2.read_unread, harg3.read_unread, harg6.read_unread, View.ld_unit_zero (S := S1024x1024) off0]

set_option maxHeartbeats 1000000 in
/-- The first block: the total is cleared, then updated; what the scratch held before does not matter. -/
theorem body_first (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (arg6 : Memref sig .tc .vmem S1024x1024 .f32) (harg6 : arg6.IsWhole)
    (hc1 : isFirst i) (hc2 : ¬isLast i)
    (x w : Vec F S1024x1024 .bf16) (K : PUnit → sProp 𝕄) :
    iprop(owns (c : Thread nD τ) arg2 fullShare x ∗ owns (c : Thread nD τ) arg3 fullShare w ∗ (∃ d, owns (c : Thread nD τ) arg6 fullShare d)
        ∗ (iprop(owns (c : Thread nD τ) arg2 fullShare x ∗ owns (c : Thread nD τ) arg3 fullShare w
              ∗ owns (c : Thread nD τ) arg6 fullShare (blockSum (cleared (F := F)) x w)) -∗ K ⟨⟩))
      ⊢ wp frame (wpE (defs₀ (F := F)) Variants.none c none) E (cc1__proj_kernel i arg2 harg2 arg3 harg3 arg4 harg4 arg5 harg5 arg6 harg6) K := by
  simp only [cc1__proj_kernel_eq_skeleton]; unfold cc1__proj_kernel_skel
  unfold owns
  iintro ⟨⟨%f2, %hf2, H2⟩, ⟨%f3, %hf3, H3⟩, ⟨%d6, %f6, %hf6, H6⟩, Hk⟩
  obtain rfl := harg2.eq_unread hf2; obtain rfl := harg3.eq_unread hf3
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg2.read_unread, harg3.read_unread, View.ld_unit_zero (S := S1024x1024) off0,
    View.readCov_unit_zero (S := S1024x1024) _ off0]

set_option maxHeartbeats 1000000 in
/-- The last block: the total is updated, then the bias row is added to it and the sum stored as the result block. -/
theorem body_last (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (arg6 : Memref sig .tc .vmem S1024x1024 .f32) (harg6 : arg6.IsWhole)
    (hc1 : ¬isFirst i) (hc2 : isLast i)
    (x w : Vec F S1024x1024 .bf16) (b : Vec F S1x1024 .f32) (s : Vec F S1024x1024 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ owns (c : Thread nD τ) arg6 fullShare s
        ∗ (iprop(owns (c : Thread nD τ) arg2 fullShare x ∗ owns (c : Thread nD τ) arg3 fullShare w ∗ owns (c : Thread nD τ) arg4 fullShare b
              ∗ owns (c : Thread nD τ) arg5 fullShare (withBias (blockSum s x w) b)
              ∗ owns (c : Thread nD τ) arg6 fullShare (blockSum s x w)) -∗ K ⟨⟩))
      ⊢ wp frame (wpE (defs₀ (F := F)) Variants.none c none) E (cc1__proj_kernel i arg2 harg2 arg3 harg3 arg4 harg4 arg5 harg5 arg6 harg6) K := by
  simp only [cc1__proj_kernel_eq_skeleton]; unfold cc1__proj_kernel_skel
  unfold owns
  iintro ⟨⟨%f2, %hf2, H2⟩, ⟨%f3, %hf3, H3⟩, ⟨%f4, %hf4, H4⟩, ⟨%d5, %f5, %hf5, H5⟩, ⟨%f6, %hf6, H6⟩, Hk⟩
  obtain rfl := harg2.eq_unread hf2; obtain rfl := harg3.eq_unread hf3; obtain rfl := harg4.eq_unread hf4
  obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.read_writes_eq_canon _ _ _ (fun y => ⟨_, List.mem_cons_self .., View.mem_set_unit_zero off0 inb_S1024x1024_S1024x1024_0_0 y⟩),
      View.canon_cons_unit_zero off0]
    simp only [View.readAt_eq_ld, harg2.read_unread, harg3.read_unread, harg4.read_unread, harg6.read_unread,
      View.ld_unit_zero (S := S1024x1024) off0, View.ld_unit_zero (S := S1x1024) off0row,
      View.readCov_unit_zero (S := S1024x1024) _ off0]
  iexists _; isplitr
  swap; · iexact H6
  ipureintro
  sl_unfold_words
  rw [View.read_writes_eq_canon _ _ _ (fun y => ⟨_, List.mem_cons_self .., View.mem_set_unit_zero off0 inb_S1024x1024_S1024x1024_0_0 y⟩),
    View.canon_cons_unit_zero off0]
  simp only [View.readAt_eq_ld, harg2.read_unread, harg3.read_unread, harg6.read_unread,
    View.ld_unit_zero (S := S1024x1024) off0]

end Cert.KernelIdeal.Proj

end
-- ==== Proof.ProjData.lean ====
/-
  The output layer's call, point by point: what each window's block is, what the running total holds after each grid
  point, and that the kernel body, run at a point from the state the point before left, leaves exactly that.

  The grid runs over 4 row blocks and, fastest, the 4 blocks of the contracted axis: point t works on row block t / 4 and
  contracted block t % 4. The total kept in the scratch after point t is, by recursion on t, the update of the cleared
  total (at t % 4 = 0) or of the total the point before left (otherwise) by point t's blocks. The result block is stored
  only at t % 4 = 3, from that point's total and the bias row; at the other points its staging buffer is handed back
  as found.
-/
import proofs.«111847_j33921651704507_1_alg».proof.Proof.Gen.KernelIdeal.Launch
import proofs.«111847_j33921651704507_1_alg».proof.Proof.Gen.KernelIdeal.Skeleton
import proofs.«111847_j33921651704507_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111847_j33921651704507_1_alg».proof.Proof.ProjBody

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

-- The core's buffer contents when the call is entered: the parameter everything here is stated at.
variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The hidden-state block, the weight block and the bias row at point `t`, at their literal types. -/
abbrev hblk (c : Dev nD) (t : Fin cfg1.N) : Vec F S1024x1024 .bf16 := iblk V c 0 t
abbrev wblk (c : Dev nD) (t : Fin cfg1.N) : Vec F S1024x1024 .bf16 := iblk V c 1 t
abbrev bblk (c : Dev nD) (t : Fin cfg1.N) : Vec F S1x1024 .f32 := iblk V c 2 t

/-! ## The branch conditions and the idle points, decided over the grid -/

theorem first_iff : ∀ t : Fin cfg1.N, isFirst (grid1.coords t) ↔ t.val % 4 = 0 :=
  (by decide +kernel : ∀ t : Fin grid1.N, isFirst (grid1.coords t) ↔ t.val % 4 = 0)
theorem last_iff : ∀ t : Fin cfg1.N, isLast (grid1.coords t) ↔ t.val % 4 = 3 :=
  (by decide +kernel : ∀ t : Fin grid1.N, isLast (grid1.coords t) ↔ t.val % 4 = 3)
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Away from the last contracted block the result window is idle and not written back. -/
theorem idle3 : ∀ t : Fin cfg1.N, ¬isLast (grid1.coords t) → cfg1.idle 3 (grid1.coords t) = true := by decide +kernel
theorem noflush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The running total -/

/-- The total in the scratch after point `n`. -/
def totalAt (c : Dev nD) : (n : ℕ) → n < cfg1.N → Vec F S1024x1024 .f32
  | 0, hn => blockSum (cleared (F := F)) (hblk V c ⟨0, hn⟩) (wblk V c ⟨0, hn⟩)
  | n + 1, hn => blockSum (if (n + 1) % 4 = 0 then cleared (F := F) else totalAt c n (Nat.lt_of_succ_lt hn))
      (hblk V c ⟨n + 1, hn⟩) (wblk V c ⟨n + 1, hn⟩)

/-- At a first contracted block the total restarts from the cleared one. -/
theorem totalAt_first (c : Dev nD) (t : Fin cfg1.N) (h0 : t.val % 4 = 0) :
    totalAt V c t.val t.isLt = blockSum (cleared (F := F)) (hblk V c t) (wblk V c t) := by
  obtain ⟨n, hn⟩ := t
  cases n with
  | zero => rfl
  | succ n => exact (congrArg (fun s => blockSum s (hblk V c ⟨n + 1, hn⟩) (wblk V c ⟨n + 1, hn⟩)) (if_pos h0)).trans rfl

/-- At any other block it continues from what the point before left. -/
theorem totalAt_next (c : Dev nD) (t : Fin cfg1.N) (h0 : ¬t.val % 4 = 0) :
    totalAt V c t.val t.isLt
      = blockSum (totalAt V c (t.val - 1) (Nat.lt_of_le_of_lt (Nat.sub_le _ _) t.isLt)) (hblk V c t) (wblk V c t) := by
  obtain ⟨n, hn⟩ := t
  cases n with
  | zero => exact absurd (Nat.zero_mod _) h0
  | succ n => exact (congrArg (fun s => blockSum s (hblk V c ⟨n + 1, hn⟩) (wblk V c ⟨n + 1, hn⟩)) (if_neg h0)).trans rfl

/-! ## The invariant: the scratch at the running total -/

/-- The scratch the kernel carries between points. -/
abbrev scr : Memref sig .tc .vmem S1024x1024 .f32 := Memref.whole cc1_scratch0

/-- The core's other scoped buffers that this call stages nothing in, each at some contents. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- What the call is handed before its first point: the scratch at anything, the other scoped buffers, the generator register. -/
theorem PhiA_open (c : Dev nD) :
    (Pipeline.ΦA spec1 c : sProp 𝕄) ⊢ iprop((∃ d, owns (c : Thread nD τ) scr fullShare d) ∗ rest (F := F) c ∗ (∃ r, prngReg c r)) := by
  unfold Pipeline.ΦA rest; rw [scopedRest1_eq]
  iintro ⟨⟨R0, R1, R2, R3, R4, R5, R6, R7, R8, R9, R10, R11, R12, ⟨%f, HS⟩⟩, Hg⟩
  isplitl [HS]
  · iexists f; rw [owns_whole]; iexact HS
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact R12

/-- And given back after its last. -/
theorem PhiA_close (c : Dev nD) :
    iprop((∃ d, owns (c : Thread nD τ) scr fullShare d) ∗ rest (F := F) c ∗ (∃ r, prngReg c r)) ⊢ (Pipeline.ΦA spec1 c : sProp 𝕄) := by
  unfold Pipeline.ΦA rest; rw [scopedRest1_eq]
  iintro ⟨⟨%d, HS⟩, ⟨R0, R1, R2, R3, R4, R5, R6, R7, R8, R9, R10, R11, R12⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexists d; rw [← owns_whole]; iexact HS

/-- The invariant before point `n`: before the first point what the call was handed; afterwards the scratch at the
    total the point before left. -/
def inv (c : Dev nD) : (n : ℕ) → n ≤ cfg1.N → sProp 𝕄
  | 0, _ => Pipeline.ΦA spec1 c
  | n + 1, hn => iprop(owns (c : Thread nD τ) scr fullShare (totalAt V c n hn) ∗ rest (F := F) c ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) scr fullShare (totalAt V c n hn) ∗ rest (F := F) c ∗ (∃ r, prngReg c r)) := rfl
theorem inv_pos (c : Dev nD) (n : ℕ) (h : n ≤ cfg1.N) (hz : n ≠ 0) :
    inv V c n h = iprop(owns (c : Thread nD τ) scr fullShare (totalAt V c (n - 1) (by omega)) ∗ rest (F := F) c ∗ (∃ r, prngReg c r)) := by
  cases n with
  | zero => exact absurd rfl hz
  | succ n => rfl

/-- Whatever the point, the invariant holds the scratch at SOME contents. -/
theorem inv_any (c : Dev nD) (n : ℕ) (h : n ≤ cfg1.N) :
    inv V c n h ⊢ iprop((∃ d, owns (c : Thread nD τ) scr fullShare d) ∗ rest (F := F) c ∗ (∃ r, prngReg c r)) := by
  cases n with
  | zero => exact PhiA_open c
  | succ n =>
    rw [inv_succ]
    iintro ⟨HS, Hr, Hg⟩
    isplitl [HS]; · iexists _; iexact HS
    isplitl [Hr]; · iexact Hr
    iexact Hg

/-! ## The proof data -/

/-- The call's proof data on core `c`: the arrays as the call finds them; after the body at point `t` each input's
    buffer at its block and the result's at the total plus the bias row; the invariant above; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => withBias (totalAt V c t.val t.isLt) (bblk V c t)
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = withBias (totalAt V c t.val t.isLt) (bblk V c t) := by dsimp only [dat]
theorem before0 (c : Dev nD) (t : Fin cfg1.N) (d) : (dat V c).before 0 t d = iblk V c 0 t := before_in0 V (dat V c) (A_eq V c 0) (after0 V c) t d
theorem before1 (c : Dev nD) (t : Fin cfg1.N) (d) : (dat V c).before 1 t d = iblk V c 1 t := before_in1 V (dat V c) (A_eq V c 1) (after1 V c) t d
theorem before2 (c : Dev nD) (t : Fin cfg1.N) (d) : (dat V c).before 2 t d = iblk V c 2 t := before_in2 V (dat V c) (A_eq V c 2) (after2 V c) t d

/-! ## The body obligation -/

/-- Each window's current staging memref at point `t`, as the pipeline passes it. -/
abbrev ms0 (t : Fin cfg1.N) : Memref sig .tc .vmem S1024x1024 .bf16 := win1_0.stage (cfg1.slots t 0)
abbrev ms1 (t : Fin cfg1.N) : Memref sig .tc .vmem S1024x1024 .bf16 := win1_1.stage (cfg1.slots t 1)
abbrev ms2 (t : Fin cfg1.N) : Memref sig .tc .vmem S1x1024 .f32 := win1_2.stage (cfg1.slots t 2)
abbrev ms3 (t : Fin cfg1.N) : Memref sig .tc .vmem S1024x1024 .f32 := win1_3.stage (cfg1.slots t 3)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point: by the contracted block the point is on, one of the three triples applies; the invariant
    hands it the scratch at what the point before left (at anything, before a first block) and takes it back at this
    point's total. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl,
    show (dat V c).Φ t.succ = inv V c (t.val + 1) t.isLt from rfl, inv_succ, inv_castSucc V c t,
    show (dat V c).leavesExact 0 t = owns (c : Thread nD τ) (ms0 t) fullShare ((dat V c).after 0 t) from by
      unfold Dat.leavesExact; rw [live0 t],
    show (dat V c).leavesExact 1 t = owns (c : Thread nD τ) (ms1 t) fullShare ((dat V c).after 1 t) from by
      unfold Dat.leavesExact; rw [live1 t],
    show (dat V c).leavesExact 2 t = owns (c : Thread nD τ) (ms2 t) fullShare ((dat V c).after 2 t) from by
      unfold Dat.leavesExact; rw [live2 t],
    after0, after1, after2]
  by_cases h0 : t.val % 4 = 0
  · have h3 : ¬t.val % 4 = 3 := by omega
    have hl : ¬isLast (grid1.coords t) := fun h => h3 ((last_iff t).mp h)
    rw [Dat.leavesExact_idle (dat V c) 3 t (idle3 t hl) (noflush3 t hl), totalAt_first V c t h0]
    iintro ⟨HΦ, Ho, ⟨%d0, H0⟩, ⟨%d1, H1⟩, ⟨%d2, H2⟩, ⟨%d3, H3⟩⟩
    ihave HΦ' := (inv_any V c t.val (Nat.le_of_lt t.isLt)) $$ HΦ
    icases HΦ' with ⟨HS, Hr, Hg⟩
    iapply (body_first c Set.univ (grid1.coords t) _ _ _ _ _ _ _ _ _ _ ((first_iff t).mpr h0) hl (hblk V c t) (wblk V c t) _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hf : ¬isFirst (grid1.coords t) := fun h => h0 ((first_iff t).mp h)
    rw [inv_pos V c _ _ hz, totalAt_next V c t h0]
    by_cases h3 : t.val % 4 = 3
    · have hl : isLast (grid1.coords t) := (last_iff t).mpr h3
      rw [show (dat V c).leavesExact 3 t = owns (c : Thread nD τ) (ms3 t) fullShare ((dat V c).after 3 t) from by
        unfold Dat.leavesExact; rw [live3 t hl], after3, totalAt_next V c t h0]
      iintro ⟨⟨HS, Hr, Hg⟩, Ho, ⟨%d0, H0⟩, ⟨%d1, H1⟩, ⟨%d2, H2⟩, ⟨%d3, H3⟩⟩
      iapply (body_last c Set.univ (grid1.coords t) _ _ _ _ _ _ _ _ _ _ hf hl (hblk V c t) (wblk V c t) (bblk V c t)
        (totalAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · have hl : ¬isLast (grid1.coords t) := fun h => h3 ((last_iff t).mp h)
      rw [Dat.leavesExact_idle (dat V c) 3 t (idle3 t hl) (noflush3 t hl)]
      iintro ⟨⟨HS, Hr, Hg⟩, Ho, ⟨%d0, H0⟩, ⟨%d1, H1⟩, ⟨%d2, H2⟩, ⟨%d3, H3⟩⟩
      iapply (body_mid c Set.univ (grid1.coords t) _ _ _ _ _ _ _ _ _ _ hf hl (hblk V c t) (wblk V c t)
        (totalAt V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point, -/
theorem inv_in (c : Dev nD) : Pipeline.ΦA spec1 c ⊢ (dat V c).Φ 0 := by
  rw [show (dat V c).Φ 0 = inv V c 0 (Nat.zero_le _) from rfl, inv_zero V c 0 _ rfl]

/-- and after the last point the invariant gives it back, the total's value forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl]
  exact (inv_any V c _ _).trans (PhiA_close c)

end Data

end Cert.KernelIdeal.Proj

end
-- ==== Proof.Run.lean ====
/-
  The whole program: host operations, the recurrent cell's call, host operations, the output layer's call.

  Between two items every unscoped buffer of the core holds known contents: the launch memory, then what the first host
  stretch writes (the arguments narrowed, the bias as a row), then the first call's result array at what its write-backs
  leave and everything else as before, then what the second host stretch writes, then the second call's result array at
  what its write-backs leave. Each call is entered from those contents and left at the next ones; in between its scratch
  total lives in the call's invariant. The run ends with every unscoped buffer at the last contents; the arguments are
  among the buffers nothing wrote, and the result is the second call's result array.
-/
import proofs.«111847_j33921651704507_1_alg».proof.Proof.Gen.KernelIdeal.Launch
import proofs.«111847_j33921651704507_1_alg».proof.Proof.Gen.KernelIdeal.Skeleton
import proofs.«111847_j33921651704507_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«111847_j33921651704507_1_alg».proof.Proof.Gen.KernelIdeal.Regions
import proofs.«111847_j33921651704507_1_alg».proof.Proof.RnnData
import proofs.«111847_j33921651704507_1_alg».proof.Proof.ProjData

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After the first call: its arrays at what the write-backs leave, every other buffer as before. -/
def W2 (c : Dev nD) : Valuation τ sig (Elt F) :=
  Pipeline.withArrays spec0 c (W1 m ρ c) fun w => (Rnn.dat (V1 m ρ) c).arrAt w cfg0.N
theorem W2_arr (c : Dev nD) (w : Fin cfg0.W) :
    W2 m ρ c (Proc.devRef .tc (Pipeline.arrRef spec0 w)) = (Rnn.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Rnn.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (Proj.dat (V3 m ρ) c).arrAt w cfg1.N
theorem W4_arr (c : Dev nD) (w : Fin cfg1.W) :
    W4 m ρ c (Proc.devRef .tc (Pipeline.arrRef spec1 w)) = (Proj.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Proj.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer neither host stretch writes and neither call stages reaches the end as launched. -/
theorem W4_kept (c : Dev nD) (b : Ref sig .tc) (h1 : ∀ w, Pipeline.arrRef spec1 w ≠ b) (hh1 : b ∉ hostOps1_W)
    (h0 : ∀ w, Pipeline.arrRef spec0 w ≠ b) (hh0 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_writes_sub hostOps1 _ hostOps1_writes hh1
    _ = W1 m ρ c (Proc.devRef .tc b) := W2_of_ne m ρ c b h0
    _ = W0 m ρ c (Proc.devRef .tc b) := StableHlo.after_of_writes_sub hostOps0 _ hostOps0_writes hh0
    _ = m ((c : Thread nD τ).loc b) := rfl

theorem W4_main_arg0 (c : Dev nD) : W4 m ρ c (Proc.devRef .tc main_arg0) = m ((c : Thread nD τ).loc main_arg0) :=
  W4_kept m ρ c main_arg0 (by decide) (by decide) (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W4_main_arg6 (c : Dev nD) : W4 m ρ c (Proc.devRef .tc main_arg6) = m ((c : Thread nD τ).loc main_arg6) :=
  W4_kept m ρ c main_arg6 (by decide) (by decide) (by decide) (by decide)

/-! ## The proof data family and the thread state -/

/-- No call has a prefetched table. -/
abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => Rnn.dat (V1 m ρ) c
  | ⟨1, _⟩ => fun c => Proj.dat (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W4 m ρ c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

-- unification with the pinned configuration may unfold plain definitions in a metavariable's type
set_option backward.isDefEq.respectTransparency.types false in
/-- Call 0 as a segment: entered with every unscoped buffer at `W1`, left with them at `W2`. Its arrays are
    split out of the unscoped buffers at entry and put back at their exit contents; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rnn.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m ρ 0 c).Φ 0 from Rnn.inv_in (V1 m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Rnn.inv_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Call 1 as a segment: entered with every unscoped buffer at `W3`, left with them at `W4`. Its arrays are
    split out of the unscoped buffers at entry and put back at their exit contents; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from Proj.inv_in (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Proj.inv_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, faulting nowhere, with
    every unscoped buffer of every core at the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The result array at the end is what the output layer's write-backs leave. -/
theorem W4_result (c : Dev nD) : W4 m ρ c (Proc.devRef .tc main_v8) = (Proj.dat (V3 m ρ) c).arrAt 3 cfg1.N :=
  W4_arr m ρ c 3

/-- The run with the result named and the arguments unchanged. -/
theorem run_named : θ_run defs (onTc (τ := τ) (main (F := F))) ⟨m, fun _ => 0, ρ⟩ (fun r => ∀ c : Dev nD,
      r.2.mem ((c.tc : Thread nD τ).loc main_v8) = (Proj.dat (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v8 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

/-- The frame: the program runs to the end and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c => (h c).2) (run_named m ρ)

end Cert.KernelIdeal.Whole

end
-- ==== Proof.HostReads.lean ====
/-
  What the two calls find in the arrays they stage, at the ideal values.

  Before the first call the host narrows the four matrix arguments and lays the first bias out as a row; at the ideal
  values a change of format is the identity, so the call finds the arguments themselves, and the bias row at column q
  is the bias at q. Before the second call the host narrows the output weights and lays the second bias out as a row;
  the hidden-state array is untouched since the first call's write-backs.
-/
import proofs.«111847_j33921651704507_1_alg».proof.Proof.Run
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- A buffer the first host stretch does not write and the first call does not stage is, after the first call, as launched. -/
theorem W2_kept (c : Dev nD) (b : Ref sig .tc) (h0 : ∀ w, Pipeline.arrRef spec0 w ≠ b) (hh0 : b ∉ hostOps0_W) :
    W2 m ρ c (Proc.devRef .tc b) = m ((c : Thread nD τ).loc b) :=
  (W2_of_ne m ρ c b h0).trans ((StableHlo.after_of_writes_sub hostOps0 _ hostOps0_writes hh0).trans rfl)

/-- A narrowed matrix argument is the argument. -/
theorem read_v0 (c : Dev nD) : (V1 m ρ c main_v0 : S4096x4096.Idx → EReal) = m ((c : Thread nD τ).loc main_arg0) := by
  show StableHlo.after hostOps0 (W0 m ρ c) (Proc.devRef .tc main_v0) = _
  dsimp only [hostOps0]
  after_results
  rfl
/-- A narrowed matrix argument is the argument. -/
theorem read_v1 (c : Dev nD) : (V1 m ρ c main_v1 : S4096x4096.Idx → EReal) = m ((c : Thread nD τ).loc main_arg1) := by
  show StableHlo.after hostOps0 (W0 m ρ c) (Proc.devRef .tc main_v1) = _
  dsimp only [hostOps0]
  after_results
  rfl
/-- A narrowed matrix argument is the argument. -/
theorem read_v2 (c : Dev nD) : (V1 m ρ c main_v2 : S4096x4096.Idx → EReal) = m ((c : Thread nD τ).loc main_arg2) := by
  show StableHlo.after hostOps0 (W0 m ρ c) (Proc.devRef .tc main_v2) = _
  dsimp only [hostOps0]
  after_results
  rfl
/-- A narrowed matrix argument is the argument. -/
theorem read_v3 (c : Dev nD) : (V1 m ρ c main_v3 : S4096x4096.Idx → EReal) = m ((c : Thread nD τ).loc main_arg3) := by
  show StableHlo.after hostOps0 (W0 m ρ c) (Proc.devRef .tc main_v3) = _
  dsimp only [hostOps0]
  after_results
  rfl

/-- The first bias laid out as a row reads, at column `q`, the bias at `q`. -/
theorem read_v4 (c : Dev nD) (q : Fin 4096) :
    (V1 m ρ c main_v4 : S1x4096.Idx → EReal) (ix2 (0 : Fin 1) q) = m ((c : Thread nD τ).loc main_arg4) (ix1 q) := by
  have e : (V1 m ρ c main_v4 : S1x4096.Idx → EReal)
      = shapeCast S1x4096 (m ((c : Thread nD τ).loc main_arg4)) shapeCasts_S4096_S1x4096 := by
    show StableHlo.after hostOps0 (W0 m ρ c) (Proc.devRef .tc main_v4) = _
    dsimp only [hostOps0]
    after_results
    rfl
  rw [e]
  exact shapeCast_a_1a_apply _ _ 0 q

/-- The hidden-state array the second call finds is what the first call's write-backs left. -/
theorem read_v5 (c : Dev nD) : V3 m ρ c main_v5 = (Rnn.dat (V1 m ρ) c).arrAt 5 cfg0.N := by
  show StableHlo.after hostOps1 (W2 m ρ c) (Proc.devRef .tc main_v5) = _
  rw [StableHlo.after_of_writes_sub hostOps1 _ hostOps1_writes (by decide : main_v5 ∉ hostOps1_W)]
  exact W2_arr m ρ c 5

/-- The narrowed output weights are the argument. -/
theorem read_v6 (c : Dev nD) : (V3 m ρ c main_v6 : S1024x4096.Idx → EReal) = m ((c : Thread nD τ).loc main_arg5) := by
  show StableHlo.after hostOps1 (W2 m ρ c) (Proc.devRef .tc main_v6) = _
  dsimp only [hostOps1]
  after_results
  rw [W2_kept m ρ c main_arg5 (by decide) (by decide)]
  rfl

/-- The second bias laid out as a row reads, at column `o`, the bias at `o`. -/
theorem read_v7 (c : Dev nD) (o : Fin 1024) :
    (V3 m ρ c main_v7 : S1x1024.Idx → EReal) (ix2 (0 : Fin 1) o) = m ((c : Thread nD τ).loc main_arg6) (ix1 o) := by
  have e : (V3 m ρ c main_v7 : S1x1024.Idx → EReal)
      = shapeCast S1x1024 (m ((c : Thread nD τ).loc main_arg6)) shapeCasts_S1024_S1x1024 := by
    show StableHlo.after hostOps1 (W2 m ρ c) (Proc.devRef .tc main_v7) = _
    dsimp only [hostOps1]
    after_results
    rw [W2_kept m ρ c main_arg6 (by decide) (by decide)]
    rfl
  rw [e]
  exact shapeCast_a_1a_apply _ _ 0 o

end Cert.KernelIdeal.Whole

end
-- ==== Proof.Spec.lean ====
/-
  A recurrent cell followed by an output layer, as functions of the argument arrays over the extended reals.

  With x and h of 4096 rows and 4096 columns, weights Wx and Wh of 4096 rows, a bias b of 4096 entries, the new
  hidden state at row r and unit c is tanh of  Σ_l x(r,l)·Wx(c,l) + Σ_l h(r,l)·Wh(c,l) + b(c):  row r of each input
  against row c of its weight matrix. The output at row r and unit o is  Σ_l H(r,l)·Wo(o,l) + bo(o)  for the hidden
  state H, a weight matrix Wo of 1024 rows and a bias bo of 1024 entries.
-/
import Idealize.ShloMosaic.PureOps.Ideal
import Idealize.ShloMosaic.Lib.ValueIdx

noncomputable section

namespace Cert.Cell

open Idealize.ShloMosaic Idealize.ShloMosaic.ValueIdx

/-- Square matrices of 4096 rows. -/
abbrev Sq : Shape := ⟨2, ![4096, 4096]⟩
/-- The output layer's weights: 1024 rows of 4096. -/
abbrev Wo : Shape := ⟨2, ![1024, 4096]⟩
/-- The result: 4096 rows of 1024. -/
abbrev Res : Shape := ⟨2, ![4096, 1024]⟩
abbrev V4096 : Shape := ⟨1, ![4096]⟩
abbrev V1024 : Shape := ⟨1, ![1024]⟩

/-- The pre-activation at row `r`, unit `c`: both products' entries and the bias. -/
def preAt (x h wx wh : Sq.Idx → EReal) (b : V4096.Idx → EReal) (r c : Fin 4096) : EReal :=
  ((∑ l : Fin 4096, x (ix2 r l) * wx (ix2 c l)) + (∑ l : Fin 4096, h (ix2 r l) * wh (ix2 c l))) + b (ix1 c)

/-- The new hidden state at row `r`, unit `c`. -/
def hiddenAt (x h wx wh : Sq.Idx → EReal) (b : V4096.Idx → EReal) (r c : Fin 4096) : EReal :=
  Ideal.tanh (preAt x h wx wh b r c)

/-- The new hidden state as an array. -/
def hidden (x h wx wh : Sq.Idx → EReal) (b : V4096.Idx → EReal) : Sq.Idx → EReal :=
  fun i => hiddenAt x h wx wh b (i 0) (i 1)

/-- The output at row `r`, unit `o`, from a hidden state `H`. -/
def outputAt (H : Sq.Idx → EReal) (wo : Wo.Idx → EReal) (bo : V1024.Idx → EReal) (r : Fin 4096) (o : Fin 1024) : EReal :=
  (∑ l : Fin 4096, H (ix2 r l) * wo (ix2 o l)) + bo (ix1 o)

/-- The output as an array. -/
def output (H : Sq.Idx → EReal) (wo : Wo.Idx → EReal) (bo : V1024.Idx → EReal) : Res.Idx → EReal :=
  fun i => outputAt H wo bo (i 0) (i 1)

/-- The whole computation: the output layer applied to the new hidden state. -/
def result (x h wx wh : Sq.Idx → EReal) (b : V4096.Idx → EReal) (wo : Wo.Idx → EReal) (bo : V1024.Idx → EReal) :
    Res.Idx → EReal :=
  output (hidden x h wx wh b) wo bo

end Cert.Cell

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.RnnValuePoint.lean ====
/-
  The recurrent cell's arithmetic at one entry of a block, over the extended reals.

  The cleared total is 0 everywhere. One block's update adds to the total at (p, q) the two products' entries there:
  row p of the input block against row q of its weight block, and row p of the hidden-state block against row q of its
  weight block — the weight blocks enter transposed, so both are read along their rows. The last step adds entry q of
  the bias row and applies tanh; the change of format at the end is the identity on the extended reals.

  Along a run of four consecutive points that starts at a first contracted block, the total after the fourth point is
  therefore, entry by entry, the four blocks' contributions added up from 0: nothing but additions, so no finiteness of
  any entry is used.
-/
import proofs.«111847_j33921651704507_1_alg».proof.Proof.RnnData
import proofs.«111847_j33921651704507_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Rnn

open Cert.KernelIdeal Cert.KernelIdeal.Gen
open Idealize.ShloMosaic Idealize.ShloMosaic.TcCoe Idealize.ShloMosaic.ValueIdx
open Idealize.ShloMosaic.Pipeline (Dat Cfg Window)

/-! ## One entry of each payload -/

/-- The cleared total is zero at every entry. -/
theorem cleared_at (p q : Fin 1024) : (cleared (F := Ideal)) (ix2 p q) = (0 : EReal) := by
  unfold cleared k0_pay1
  rw [shapeCast_self]
  exact Ideal.ofBits_zero_f32

/-- One block product into the zero accumulator: the block A against the transposed block B reads, at (p, q), row p of
    A against row q of B. -/
theorem prod_at (A B : FVec Ideal S1024x1024 .bf16) (p q : Fin 1024) :
    matmul dot_S1024x1024_S1024x1024_S1024x1024_1_0_0_1_n_n none A
        (transpose S1024x1024 [1, 0] B transposes_S1024x1024_p1_0_S1024x1024) (constant S1024x1024 .f32 0x00000000#32) (ix2 p q)
      = ∑ l : Fin 1024, (A (ix2 p l) : EReal) * B (ix2 q l) := by
  refine (DenseLayer.matmul_rows_apply (m := 1024) (k := 1024) (n := 1024)
    dot_S1024x1024_S1024x1024_S1024x1024_1_0_0_1_n_n_wf none A _ p q).trans ?_
  refine Finset.sum_congr rfl fun l _ => ?_
  rw [transpose_ix2_apply]

/-- One block's update at (p, q): the total there plus the two products' entries. -/
theorem blockSum_at (s : FVec Ideal S1024x1024 .f32) (x wx h wh : FVec Ideal S1024x1024 .bf16) (p q : Fin 1024) :
    blockSum (F := Ideal) s x wx h wh (ix2 p q)
      = (s (ix2 p q) : EReal)
        + ((∑ l : Fin 1024, (x (ix2 p l) : EReal) * wx (ix2 q l)) + (∑ l : Fin 1024, (h (ix2 p l) : EReal) * wh (ix2 q l))) := by
  unfold blockSum k0_pay2
  rw [shapeCast_self, shapeCast_self, shapeCast_self, shapeCast_self, shapeCast_self]
  refine (addf_apply _ _ _).trans ?_
  refine congrArg (fun z => (s (ix2 p q) : EReal) + z) ?_
  refine (addf_apply _ _ _).trans ?_
  rw [prod_at, prod_at]

/-- The last step at (p, q): tanh of the total there plus entry q of the bias row. -/
theorem activated_at (s : FVec Ideal S1024x1024 .f32) (b : FVec Ideal S1x1024 .f32) (p q : Fin 1024) :
    activated (F := Ideal) s b (ix2 p q) = Ideal.tanh ((s (ix2 p q) : EReal) + b (ix2 (0 : Fin 1) q)) := by
  unfold activated k0_pay3
  rw [shapeCast_self]
  refine (truncf_apply (ψ := .bf16) _ bitsLt_bf16_f32 (ix2 p q)).trans ?_
  show Ideal.tanh (addf s (broadcastTo S1024x1024 b broadcasts_S1x1024_S1024x1024) (ix2 p q)) = _
  refine congrArg Ideal.tanh ?_
  refine (addf_apply _ _ _).trans ?_
  rw [broadcastTo_1b_ab_apply]

/-! ## The running total at one entry -/

section Total

variable (V : (c : Dev nD) → (b : Ref sig .tc) → Buf (Elt Ideal) ((c : Thread nD τ).loc b))

/-- What the blocks of point `u` add to the total at (p, q). -/
def term (c : Dev nD) (u : Fin cfg0.N) (p q : Fin 1024) : EReal :=
  (∑ l : Fin 1024, (xblk V c u (ix2 p l) : EReal) * wxblk V c u (ix2 q l))
    + (∑ l : Fin 1024, (hblk V c u (ix2 p l) : EReal) * whblk V c u (ix2 q l))

/-- The update by point `u`'s blocks, at (p, q). -/
theorem step_at (s : FVec Ideal S1024x1024 .f32) (c : Dev nD) (u : Fin cfg0.N) (p q : Fin 1024) :
    blockSum (F := Ideal) s (xblk V c u) (wxblk V c u) (hblk V c u) (whblk V c u) (ix2 p q)
      = (s (ix2 p q) : EReal) + term V c u p q :=
  blockSum_at s (xblk V c u) (wxblk V c u) (hblk V c u) (whblk V c u) p q

/-- At a first contracted block the total is that block's contribution alone. -/
theorem total_first_at (c : Dev nD) (u : Fin cfg0.N) (h0 : u.val % 4 = 0) (p q : Fin 1024) :
    (totalAt V c u.val u.isLt (ix2 p q) : EReal) = term V c u p q := by
  refine (congrFun (totalAt_first V c u h0) (ix2 p q)).trans ?_
  refine (step_at V (cleared (F := Ideal)) c u p q).trans ?_
  rw [cleared_at, zero_add]

/-- At any other block it is the total the point before left plus this block's contribution. -/
theorem total_next_at (c : Dev nD) (u : Fin cfg0.N) (h0 : ¬u.val % 4 = 0) (p q : Fin 1024) :
    (totalAt V c u.val u.isLt (ix2 p q) : EReal)
      = totalAt V c (u.val - 1) (Nat.lt_of_le_of_lt (Nat.sub_le _ _) u.isLt) (ix2 p q) + term V c u p q :=
  (congrFun (totalAt_next V c u h0) (ix2 p q)).trans (step_at V _ c u p q)

/-- After the fourth of four consecutive points that start at a first contracted block, the total at (p, q) is the four
    contributions added in order. -/
theorem total_last_at (c : Dev nD) (n : ℕ) (hn : n + 3 < cfg0.N) (h0 : n % 4 = 0) (p q : Fin 1024) :
    (totalAt V c (n + 3) hn (ix2 p q) : EReal)
      = term V c ⟨n, Nat.lt_of_succ_lt (Nat.lt_of_succ_lt (Nat.lt_of_succ_lt hn))⟩ p q
        + term V c ⟨n + 1, Nat.lt_of_succ_lt (Nat.lt_of_succ_lt hn)⟩ p q
        + term V c ⟨n + 2, Nat.lt_of_succ_lt hn⟩ p q
        + term V c ⟨n + 3, hn⟩ p q := by
  have e3 : (totalAt V c (n + 3) hn (ix2 p q) : EReal)
      = totalAt V c (n + 2) (Nat.lt_of_succ_lt hn) (ix2 p q) + term V c ⟨n + 3, hn⟩ p q :=
    total_next_at V c ⟨n + 3, hn⟩ (by show ¬(n + 3) % 4 = 0; omega) p q
  have e2 : (totalAt V c (n + 2) (Nat.lt_of_succ_lt hn) (ix2 p q) : EReal)
      = totalAt V c (n + 1) (Nat.lt_of_succ_lt (Nat.lt_of_succ_lt hn)) (ix2 p q) + term V c ⟨n + 2, Nat.lt_of_succ_lt hn⟩ p q :=
    total_next_at V c ⟨n + 2, Nat.lt_of_succ_lt hn⟩ (by show ¬(n + 2) % 4 = 0; omega) p q
  have e1 : (totalAt V c (n + 1) (Nat.lt_of_succ_lt (Nat.lt_of_succ_lt hn)) (ix2 p q) : EReal)
      = totalAt V c n (Nat.lt_of_succ_lt (Nat.lt_of_succ_lt (Nat.lt_of_succ_lt hn))) (ix2 p q)
        + term V c ⟨n + 1, Nat.lt_of_succ_lt (Nat.lt_of_succ_lt hn)⟩ p q :=
    total_next_at V c ⟨n + 1, Nat.lt_of_succ_lt (Nat.lt_of_succ_lt hn)⟩ (by show ¬(n + 1) % 4 = 0; omega) p q
  have e0 : (totalAt V c n (Nat.lt_of_succ_lt (Nat.lt_of_succ_lt (Nat.lt_of_succ_lt hn))) (ix2 p q) : EReal)
      = term V c ⟨n, Nat.lt_of_succ_lt (Nat.lt_of_succ_lt (Nat.lt_of_succ_lt hn))⟩ p q :=
    total_first_at V c ⟨n, Nat.lt_of_succ_lt (Nat.lt_of_succ_lt (Nat.lt_of_succ_lt hn))⟩ h0 p q
  rw [e3, e2, e1, e0]

end Total

end Cert.KernelIdeal.Rnn

end
-- ==== Proof.RnnValueBlocks.lean ====
/-
  The blocks of the recurrent cell's call as parts of the arrays it reads and writes.

  The grid is 4 row blocks by 4 column blocks by 4 contracted blocks of 1024, the contracted axis fastest: point t is
  on row block t / 16, column block (t / 4) % 4 and contracted block t % 4. At that point the input and the hidden
  state give the 1024 × 1024 block at (row block, contracted block); the two weight matrices give the block at (column
  block, contracted block), because each is read by its rows; the bias row gives entries 1024 · (column block) and
  onwards; the result takes the block at (row block, column block). An entry of a block therefore sits in its array,
  on each axis, at 1024 times the block's index plus the entry's own coordinate.

  The result is written back at the last contracted block only, and the sixteen (row block, column block) pairs tile
  the whole 4096 × 4096 result: the entry at (i, j) lies in the block of point 16 · (i / 1024) + 4 · (j / 1024) + 3.
-/
import proofs.«111847_j33921651704507_1_alg».proof.Proof.RnnData
import proofs.«111847_j33921651704507_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Rnn

open Cert.KernelIdeal Cert.KernelIdeal.Gen
open Idealize.ShloMosaic Idealize.ShloMosaic.TcCoe Idealize.ShloMosaic.ValueIdx
open Idealize.ShloMosaic.Pipeline (Dat Cfg Window)

/-! ## The block indices, decided once over the grid -/

theorem idx_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_wx : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_h : ∀ t : Fin cfg0.N, win0_2.index t (0 : Fin 2) = t.val / 16 ∧ win0_2.index t (1 : Fin 2) = t.val % 4 :=
  (by decide +kernel : ∀ t : Fin grid0.N, win0_2.index t (0 : Fin 2) = t.val / 16 ∧ win0_2.index t (1 : Fin 2) = t.val % 4)
theorem idx_wh : ∀ t : Fin cfg0.N, win0_3.index t (0 : Fin 2) = t.val / 4 % 4 ∧ win0_3.index t (1 : Fin 2) = t.val % 4 :=
  (by decide +kernel : ∀ t : Fin grid0.N, win0_3.index t (0 : Fin 2) = t.val / 4 % 4 ∧ win0_3.index t (1 : Fin 2) = t.val % 4)
theorem idx_b : ∀ t : Fin cfg0.N, win0_4.index t (0 : Fin 2) = 0 ∧ win0_4.index t (1 : Fin 2) = t.val / 4 % 4 :=
  (by decide +kernel : ∀ t : Fin grid0.N, win0_4.index t (0 : Fin 2) = 0 ∧ win0_4.index t (1 : Fin 2) = t.val / 4 % 4)
theorem idx_out : ∀ t : Fin cfg0.N, win0_5.index t (0 : Fin 2) = t.val / 16 ∧ win0_5.index t (1 : Fin 2) = t.val / 4 % 4 :=
  (by decide +kernel : ∀ t : Fin grid0.N, win0_5.index t (0 : Fin 2) = t.val / 16 ∧ win0_5.index t (1 : Fin 2) = t.val / 4 % 4)

section Arrays

variable (V : (c : Dev nD) → (b : Ref sig .tc) → Buf (Elt Ideal) ((c : Thread nD τ).loc b))

/-! ## The arrays the call reads -/

/-- The input x. -/
abbrev Xarr (c : Dev nD) : Cert.Cell.Sq.Idx → EReal := V c main_v0
/-- The previous hidden state. -/
abbrev Harr (c : Dev nD) : Cert.Cell.Sq.Idx → EReal := V c main_v1
/-- The input weights. -/
abbrev WXarr (c : Dev nD) : Cert.Cell.Sq.Idx → EReal := V c main_v2
/-- The hidden weights. -/
abbrev WHarr (c : Dev nD) : Cert.Cell.Sq.Idx → EReal := V c main_v3
/-- The bias as a row. -/
abbrev Brow (c : Dev nD) : (⟨2, ![1, 4096]⟩ : Shape).Idx → EReal := V c main_v4

/-! ## An entry of a block is an entry of its array -/

/-- The input's block at point `t`: rows of row block t / 16, columns of contracted block t % 4. -/
theorem xblk_at (c : Dev nD) (t : Fin cfg0.N) (p l : Fin 1024) (r L : Fin 4096)
    (hr : r.val = 1024 * (t.val / 16) + p.val) (hL : L.val = 1024 * (t.val % 4) + l.val) :
    (xblk V c t (ix2 p l) : EReal) = Xarr V c (ix2 r L) := by
  obtain ⟨e0, e1⟩ := idx_x t
  unfold xblk iblk
  rw [View.read_apply]
  show V c main_v0 (((cfg0.win 0).blk t).view.emb (ix2 p l)) = V c main_v0 (ix2 r L)
  refine congrArg (V c main_v0) ?_
  funext a; apply Fin.ext
  match a with
  | ⟨0, _⟩ => show win0_0.index t (0 : Fin 2) * 1024 + 1 * p.val = r.val; rw [e0, hr]; omega
  | ⟨1, _⟩ => show win0_0.index t (1 : Fin 2) * 1024 + 1 * l.val = L.val; rw [e1, hL]; omega

/-- The input weights' block at point `t`: rows of column block (t / 4) % 4, columns of contracted block t % 4. -/
theorem wxblk_at (c : Dev nD) (t : Fin cfg0.N) (q l : Fin 1024) (u L : Fin 4096)
    (hu : u.val = 1024 * (t.val / 4 % 4) + q.val) (hL : L.val = 1024 * (t.val % 4) + l.val) :
    (wxblk V c t (ix2 q l) : EReal) = WXarr V c (ix2 u L) := by
  obtain ⟨e0, e1⟩ := idx_wx t
  unfold wxblk iblk
  rw [View.read_apply]
  show V c main_v2 (((cfg0.win 1).blk t).view.emb (ix2 q l)) = V c main_v2 (ix2 u L)
  refine congrArg (V c main_v2) ?_
  funext a; apply Fin.ext
  match a with
  | ⟨0, _⟩ => show win0_1.index t (0 : Fin 2) * 1024 + 1 * q.val = u.val; rw [e0, hu]; omega
  | ⟨1, _⟩ => show win0_1.index t (1 : Fin 2) * 1024 + 1 * l.val = L.val; rw [e1, hL]; omega

/-- The hidden state's block at point `t`: rows of row block t / 16, columns of contracted block t % 4. -/
theorem hblk_at (c : Dev nD) (t : Fin cfg0.N) (p l : Fin 1024) (r L : Fin 4096)
    (hr : r.val = 1024 * (t.val / 16) + p.val) (hL : L.val = 1024 * (t.val % 4) + l.val) :
    (hblk V c t (ix2 p l) : EReal) = Harr V c (ix2 r L) := by
  obtain ⟨e0, e1⟩ := idx_h t
  unfold hblk iblk
  rw [View.read_apply]
  show V c main_v1 (((cfg0.win 2).blk t).view.emb (ix2 p l)) = V c main_v1 (ix2 r L)
  refine congrArg (V c main_v1) ?_
  funext a; apply Fin.ext
  match a with
  | ⟨0, _⟩ => show win0_2.index t (0 : Fin 2) * 1024 + 1 * p.val = r.val; rw [e0, hr]; omega
  | ⟨1, _⟩ => show win0_2.index t (1 : Fin 2) * 1024 + 1 * l.val = L.val; rw [e1, hL]; omega

/-- The hidden weights' block at point `t`: rows of column block (t / 4) % 4, columns of contracted block t % 4. -/
theorem whblk_at (c : Dev nD) (t : Fin cfg0.N) (q l : Fin 1024) (u L : Fin 4096)
    (hu : u.val = 1024 * (t.val / 4 % 4) + q.val) (hL : L.val = 1024 * (t.val % 4) + l.val) :
    (whblk V c t (ix2 q l) : EReal) = WHarr V c (ix2 u L) := by
  obtain ⟨e0, e1⟩ := idx_wh t
  unfold whblk iblk
  rw [View.read_apply]
  show V c main_v3 (((cfg0.win 3).blk t).view.emb (ix2 q l)) = V c main_v3 (ix2 u L)
  refine congrArg (V c main_v3) ?_
  funext a; apply Fin.ext
  match a with
  | ⟨0, _⟩ => show win0_3.index t (0 : Fin 2) * 1024 + 1 * q.val = u.val; rw [e0, hu]; omega
  | ⟨1, _⟩ => show win0_3.index t (1 : Fin 2) * 1024 + 1 * l.val = L.val; rw [e1, hL]; omega

/-- The bias row's block at point `t`: the entries of column block (t / 4) % 4. -/
theorem bblk_at (c : Dev nD) (t : Fin cfg0.N) (q : Fin 1024) (u : Fin 4096)
    (hu : u.val = 1024 * (t.val / 4 % 4) + q.val) :
    (bblk V c t (ix2 (0 : Fin 1) q) : EReal) = Brow V c (ix2 (0 : Fin 1) u) := by
  obtain ⟨e0, e1⟩ := idx_b t
  unfold bblk iblk
  rw [View.read_apply]
  show V c main_v4 (((cfg0.win 4).blk t).view.emb (ix2 (0 : Fin 1) q)) = V c main_v4 (ix2 (0 : Fin 1) u)
  refine congrArg (V c main_v4) ?_
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 1024 + 1 * q.val = u.val; rw [e1, hu]; omega

end Arrays

/-! ## The result's blocks -/

/-- A function of the result array's indices read through the result's block at point `t`: the entry (p, q) of the block
    is the entry of the array at row 1024 · (t / 16) + p and column 1024 · ((t / 4) % 4) + q. -/
theorem out_read (G : Cert.Cell.Sq.Idx → EReal) (t : Fin cfg0.N) (p q : Fin 1024) (r u : Fin 4096)
    (hr : r.val = 1024 * (t.val / 16) + p.val) (hu : u.val = 1024 * (t.val / 4 % 4) + q.val) :
    ((cfg0.win 5).blk t).view.read (Elt Ideal) G (ix2 p q) = G (ix2 r u) := by
  obtain ⟨e0, e1⟩ := idx_out t
  rw [View.read_apply]
  show G (((cfg0.win 5).blk t).view.emb (ix2 p q)) = G (ix2 r u)
  refine congrArg G ?_
  funext a; apply Fin.ext
  match a with
  | ⟨0, _⟩ => show win0_5.index t (0 : Fin 2) * 1024 + 1 * p.val = r.val; rw [e0, hr]; omega
  | ⟨1, _⟩ => show win0_5.index t (1 : Fin 2) * 1024 + 1 * q.val = u.val; rw [e1, hu]; omega

/-- An index of the result array is in point `t`'s block iff each coordinate is in the block's range on its axis. -/
theorem mem_out (t : Fin cfg0.N) (i : Cert.Cell.Sq.Idx) :
    i ∈ ((cfg0.win 5).blk t).view.set
      ↔ ∀ a : Fin 2, win0_5.index t a * S1024x1024.size a ≤ (i a).val ∧ (i a).val < win0_5.index t a * S1024x1024.size a + S1024x1024.size a := by
  show i ∈ ((View.whole main_v5).slice (win0_5.rect t)).set ↔ _
  rw [View.set_slice_whole, Rect.mem_set_unit]
  exact Iff.rfl

/-- Every entry of the result lies in the block of a point that writes its block back. -/
theorem out_cover (i : Cert.Cell.Sq.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hN : grid0.N = 64 := N_0
  have hlt : 16 * ((i 0).val / 1024) + 4 * ((i 1).val / 1024) + 3 < cfg0.N := by
    show _ < grid0.N
    rw [hN]; omega
  refine ⟨⟨16 * ((i 0).val / 1024) + 4 * ((i 1).val / 1024) + 3, hlt⟩, (flush0_5 _).mpr (by
    show (16 * ((i 0).val / 1024) + 4 * ((i 1).val / 1024) + 3) % 4 = 3; omega), ?_⟩
  rw [mem_out]
  obtain ⟨e0, e1⟩ := idx_out ⟨16 * ((i 0).val / 1024) + 4 * ((i 1).val / 1024) + 3, hlt⟩
  intro a
  match a with
  | ⟨0, _⟩ =>
    show win0_5.index ⟨16 * ((i 0).val / 1024) + 4 * ((i 1).val / 1024) + 3, hlt⟩ (0 : Fin 2) * 1024 ≤ (i 0).val
      ∧ (i 0).val < win0_5.index ⟨16 * ((i 0).val / 1024) + 4 * ((i 1).val / 1024) + 3, hlt⟩ (0 : Fin 2) * 1024 + 1024
    rw [e0]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_5.index ⟨16 * ((i 0).val / 1024) + 4 * ((i 1).val / 1024) + 3, hlt⟩ (1 : Fin 2) * 1024 ≤ (i 1).val
      ∧ (i 1).val < win0_5.index ⟨16 * ((i 0).val / 1024) + 4 * ((i 1).val / 1024) + 3, hlt⟩ (1 : Fin 2) * 1024 + 1024
    rw [e1]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

end Cert.KernelIdeal.Rnn

end
-- ==== Proof.LibSumRows.lean ====
/-
  Finite sums in a commutative monoid, re-indexed.

  `sum_fin_rows`: a sum over `n = a * b` consecutive positions is the sum over `a` rows of `b` entries, position
  `b * i + j` being entry `j` of row `i` (the statement takes the summand of the double sum and an equation per
  position, so no cast of an index appears in it). `sum_idx1`, `sum_idx3`: a sum over the indices of a rank-1 or
  rank-3 shape is the sum over its coordinates (the rank-2 form is the library's `ValueIdx.sum_idx2`).
-/
import Idealize.ShloMosaic.Lib.ValueIdx

open scoped BigOperators

namespace Cert.LibSumRows

variable {M : Type*} [AddCommMonoid M]

/-- A sum over `n = a * b` positions is the sum over `a` rows of `b`: position `b * i + j` is entry `j` of row `i`. -/
theorem sum_fin_rows {n a b : ℕ} (hn : n = a * b) (F : Fin n → M) (G : Fin a → Fin b → M)
    (hG : ∀ (i : Fin a) (j : Fin b) (h : b * i.val + j.val < n), F ⟨b * i.val + j.val, h⟩ = G i j) :
    ∑ k, F k = ∑ i, ∑ j, G i j := by
  subst hn
  rw [← finProdFinEquiv.sum_comp, Fintype.sum_prod_type]
  refine Finset.sum_congr rfl fun i _ => Finset.sum_congr rfl fun j _ => ?_
  have e : finProdFinEquiv (i, j) = ⟨b * i.val + j.val, (finProdFinEquiv (i, j)).isLt.trans_eq' (by
      simp [finProdFinEquiv, Nat.add_comm])⟩ := Fin.ext (by simp [finProdFinEquiv, Nat.add_comm])
  rw [e]
  exact hG i j _

open Idealize.ShloMosaic Idealize.ShloMosaic.ValueIdx in
/-- A sum over a rank-1 index set is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

open Idealize.ShloMosaic Idealize.ShloMosaic.ValueIdx in
/-- A sum over a rank-3 index set is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

end Cert.LibSumRows
-- ==== Proof.RnnValue.lean ====
/-
  The value of the recurrent cell's call over the extended reals: after the call the result array holds, at row r and
  unit s, tanh of  Σ_l x(r,l)·Wx(s,l) + Σ_l h(r,l)·Wh(s,l) + b(s)  — the specification's new hidden state of the arrays
  the call read.

  The entry (r, s) lies in the result block (r / 1024, s / 1024), written back at that block's last contracted point.
  There the running total at the entry is the four contracted blocks' contributions added from 0, each the 1024
  entries 1024·k, …, 1024·k + 1023 of the two row-against-row products; four such parts of a line of 4096 entries are
  the whole line, and a sum of sums of two terms is the sum of the two sums: additions in a commutative monoid only, so
  infinite entries need no care. The last step adds the bias entry s and applies tanh. The sixteen result blocks tile
  the array, so every entry is written once with this value.
-/
import proofs.«111847_j33921651704507_1_alg».proof.Proof.RnnValuePoint
import proofs.«111847_j33921651704507_1_alg».proof.Proof.RnnValueBlocks
import proofs.«111847_j33921651704507_1_alg».proof.Proof.LibSumRows
import Mathlib.Algebra.BigOperators.Fin
import Mathlib.Tactic.Abel

set_option maxRecDepth 16384

noncomputable section

namespace Cert.KernelIdeal.Rnn

open Cert.KernelIdeal Cert.KernelIdeal.Gen
open Idealize.ShloMosaic Idealize.ShloMosaic.TcCoe Idealize.ShloMosaic.ValueIdx
open Idealize.ShloMosaic.Pipeline (Dat Cfg Window)

/-! ## Four blocks of 1024 entries are the one line of 4096 -/

/-- The part of a sum over 4096 entries that contracted block `k` holds: entries 1024 · k, …, 1024 · k + 1023. -/
def blockPart {M : Type*} [AddCommMonoid M] (f : Fin 4096 → M) (k : Fin 4) : M :=
  ∑ l : Fin 1024, f ⟨1024 * k.val + l.val, by have := k.isLt; have := l.isLt; omega⟩

/-- A sum over 4096 entries is its four blocks' parts added. -/
theorem sum_four_blocks {M : Type*} [AddCommMonoid M] (f : Fin 4096 → M) :
    ∑ L : Fin 4096, f L = blockPart f 0 + blockPart f 1 + blockPart f 2 + blockPart f 3 := by
  rw [Cert.LibSumRows.sum_fin_rows (a := 4) (b := 1024) (by norm_num) f
    (fun k l => f ⟨1024 * k.val + l.val, by have := k.isLt; have := l.isLt; omega⟩) (fun _ _ _ => rfl), Fin.sum_univ_four]
  rfl

/-- Row `r` of `A` against row `u` of `B`, entry by entry. -/
abbrev rowProd (A B : Cert.Cell.Sq.Idx → EReal) (r u : Fin 4096) : Fin 4096 → EReal := fun L => A (ix2 r L) * B (ix2 u L)

section Value

variable (V : (c : Dev nD) → (b : Ref sig .tc) → Buf (Elt Ideal) ((c : Thread nD τ).loc b))

/-- What the blocks of point `u` add at (p, q), in the arrays: contracted block u % 4 of row r of x against row s of Wx,
    and of row r of the hidden state against row s of Wh, for r and s the row and the column of the result the entry
    (p, q) of point `u`'s result block sits at. -/
theorem term_eq (c : Dev nD) (u : Fin cfg0.N) (p q : Fin 1024) (r s : Fin 4096) (k : Fin 4)
    (hr : r.val = 1024 * (u.val / 16) + p.val) (hs : s.val = 1024 * (u.val / 4 % 4) + q.val) (hk : u.val % 4 = k.val) :
    term V c u p q = blockPart (rowProd (Xarr V c) (WXarr V c) r s) k + blockPart (rowProd (Harr V c) (WHarr V c) r s) k := by
  unfold term blockPart
  refine congrArg₂ (· + ·) (Finset.sum_congr rfl fun l _ => ?_) (Finset.sum_congr rfl fun l _ => ?_)
  · exact congrArg₂ (· * ·) (xblk_at V c u p l r _ hr (by show 1024 * k.val + l.val = _; rw [hk]))
      (wxblk_at V c u q l s _ hs (by show 1024 * k.val + l.val = _; rw [hk]))
  · exact congrArg₂ (· * ·) (hblk_at V c u p l r _ hr (by show 1024 * k.val + l.val = _; rw [hk]))
      (whblk_at V c u q l s _ hs (by show 1024 * k.val + l.val = _; rw [hk]))

/-- The total after the fourth of four consecutive points that start at a first contracted block, at (p, q): row r of x
    against row s of Wx plus row r of the hidden state against row s of Wh, all 4096 entries of each. -/
theorem total_eq (c : Dev nD) (n : ℕ) (hn : n + 3 < cfg0.N) (h0 : n % 4 = 0) (p q : Fin 1024) (r s : Fin 4096)
    (hr : r.val = 1024 * ((n + 3) / 16) + p.val) (hs : s.val = 1024 * ((n + 3) / 4 % 4) + q.val) :
    (totalAt V c (n + 3) hn (ix2 p q) : EReal)
      = (∑ l : Fin 4096, Xarr V c (ix2 r l) * WXarr V c (ix2 s l)) + (∑ l : Fin 4096, Harr V c (ix2 r l) * WHarr V c (ix2 s l)) := by
  show _ = (∑ L : Fin 4096, rowProd (Xarr V c) (WXarr V c) r s L) + (∑ L : Fin 4096, rowProd (Harr V c) (WHarr V c) r s L)
  rw [total_last_at V c n hn h0 p q,
    term_eq V c ⟨n, _⟩ p q r s 0 (by show r.val = 1024 * (n / 16) + p.val; omega) (by show s.val = 1024 * (n / 4 % 4) + q.val; omega)
      (by show n % 4 = 0; exact h0),
    term_eq V c ⟨n + 1, _⟩ p q r s 1 (by show r.val = 1024 * ((n + 1) / 16) + p.val; omega)
      (by show s.val = 1024 * ((n + 1) / 4 % 4) + q.val; omega) (by show (n + 1) % 4 = 1; omega),
    term_eq V c ⟨n + 2, _⟩ p q r s 2 (by show r.val = 1024 * ((n + 2) / 16) + p.val; omega)
      (by show s.val = 1024 * ((n + 2) / 4 % 4) + q.val; omega) (by show (n + 2) % 4 = 2; omega),
    term_eq V c ⟨n + 3, hn⟩ p q r s 3 hr hs (by show (n + 3) % 4 = 3; omega),
    sum_four_blocks (rowProd (Xarr V c) (WXarr V c) r s), sum_four_blocks (rowProd (Harr V c) (WHarr V c) r s)]
  abel

/-- What the result array ends holding: the specification's new hidden state of the arrays the call read. -/
abbrev cellOut (c : Dev nD) : Cert.Cell.Sq.Idx → EReal :=
  Cert.Cell.hidden (Xarr V c) (Harr V c) (WXarr V c) (WHarr V c) (fun i => Brow V c (ix2 0 (i 0)))

/-- What a point at a last contracted block writes back is its block of the new hidden state. -/
theorem flushed_eq (c : Dev nD) (t : Fin cfg0.N) (hf : (cfg0.win 5).flush t = true) :
    (dat (F := Ideal) V c).flushed 5 t = ((cfg0.win 5).blk t).view.read (Elt Ideal) (cellOut V c) := by
  have h3 : t.val % 4 = 3 := (flush0_5 t).mp hf
  obtain ⟨tv, htv⟩ := t
  obtain ⟨n, rfl⟩ : ∃ n, tv = n + 3 := ⟨tv - 3, by have : tv % 4 = 3 := h3; omega⟩
  have h0 : n % 4 = 0 := by have : (n + 3) % 4 = 3 := h3; omega
  have hN : grid0.N = 64 := N_0
  have hn64 : n + 3 < 64 := by rw [← hN]; exact htv
  show (cfg0.win 5).cut (cfg0.grid.coords ⟨n + 3, htv⟩) ((dat (F := Ideal) V c).after 5 ⟨n + 3, htv⟩) = _
  rw [after5]
  funext y
  obtain ⟨p, q, rfl⟩ : ∃ (p : Fin 1024) (q : Fin 1024), y = ix2 p q := ⟨y 0, y 1, eq_ix2 y⟩
  have hp := p.isLt
  have hq := q.isLt
  refine Eq.trans ?_ (out_read (cellOut V c) ⟨n + 3, htv⟩ p q ⟨1024 * ((n + 3) / 16) + p.val, by omega⟩
    ⟨1024 * ((n + 3) / 4 % 4) + q.val, by omega⟩ rfl rfl).symm
  show activated (F := Ideal) (totalAt V c (n + 3) htv) (bblk V c ⟨n + 3, htv⟩) (ix2 p q) = _
  refine (activated_at (totalAt V c (n + 3) htv) (bblk V c ⟨n + 3, htv⟩) p q).trans ?_
  show _ = Ideal.tanh (Cert.Cell.preAt (Xarr V c) (Harr V c) (WXarr V c) (WHarr V c) (fun i => Brow V c (ix2 0 (i 0)))
    ⟨1024 * ((n + 3) / 16) + p.val, by omega⟩ ⟨1024 * ((n + 3) / 4 % 4) + q.val, by omega⟩)
  refine congrArg Ideal.tanh ?_
  unfold Cert.Cell.preAt
  exact congrArg₂ (· + ·) (total_eq V c n htv h0 p q _ _ rfl rfl) (bblk_at V c ⟨n + 3, htv⟩ q _ rfl)

/-- The array the call wrote, after the call: the specification's new hidden state of the arrays it read. -/
theorem final (c : Dev nD) :
    (dat (F := Ideal) V c).arrAt 5 cfg0.N
      = Cert.Cell.hidden (Xarr V c) (Harr V c) (WXarr V c) (WHarr V c) (fun i => Brow V c (ix2 0 (i 0))) :=
  (dat (F := Ideal) V c).arrAt_eq_of_cover 5 (cellOut V c) (fun t ht => flushed_eq V c t ht) out_cover

end Value

end Cert.KernelIdeal.Rnn

end
-- ==== Proof.ProjValuePoint.lean ====
/-
  The output layer's arithmetic, entry by entry, over the extended reals.

  The cleared total is zero everywhere. One block's update adds to the total, at row p and unit q, the products of row p
  of the hidden-state block with row q of the weight block: the kernel multiplies by the transposed weight block, whose
  column q is the weight block's row q. The last step adds, at unit q, entry q of the bias row, whatever the row p.
-/
import proofs.«111847_j33921651704507_1_alg».proof.Proof.ProjBody
import proofs.«111847_j33921651704507_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Proj

open Cert.KernelIdeal Cert.KernelIdeal.Gen
open Idealize.ShloMosaic Idealize.ShloMosaic.ValueIdx

/-- The cleared total is zero at every entry. -/
theorem cleared_apply (p q : Fin 1024) : cleared (F := Ideal) (ix2 p q) = 0 := by
  unfold cleared k1_pay1
  exact Ideal.ofBits_zero_f32

/-- The product of the hidden-state block with the transposed weight block, at row `p` and unit `q`: row `p` against
    the weight block's row `q`. -/
theorem product_apply (x w : FVec Ideal S1024x1024 .bf16) (p q : Fin 1024) :
    matmul dot_S1024x1024_S1024x1024_S1024x1024_1_0_0_1_n_n none x
        (transpose S1024x1024 [1, 0] w transposes_S1024x1024_p1_0_S1024x1024)
        (constant (F := Ideal) S1024x1024 .f32 0x00000000#32) (ix2 p q)
      = ∑ l : Fin 1024, x (ix2 p l) * w (ix2 q l) := by
  refine (DenseLayer.matmul_rows_apply dot_S1024x1024_S1024x1024_S1024x1024_1_0_0_1_n_n_wf none x
    (transpose S1024x1024 [1, 0] w transposes_S1024x1024_p1_0_S1024x1024) p q).trans ?_
  refine Finset.sum_congr rfl fun l _ => ?_
  exact congrArg (x (ix2 p l) * ·) (transpose_ix2_apply w transposes_S1024x1024_p1_0_S1024x1024 l q)

/-- One block's update at row `p` and unit `q`: the total there plus the block's share of the contraction. -/
theorem blockSum_apply (s : Vec Ideal S1024x1024 .f32) (x w : Vec Ideal S1024x1024 .bf16) (p q : Fin 1024) :
    blockSum (F := Ideal) s x w (ix2 p q) = s (ix2 p q) + ∑ l : Fin 1024, x (ix2 p l) * w (ix2 q l) := by
  unfold blockSum k1_pay2
  simp only [shapeCast_self]
  exact congrArg (s (ix2 p q) + ·) (product_apply x w p q)

/-- The last step at row `p` and unit `q`: the total there plus the bias row's entry `q`. -/
theorem withBias_apply (s : Vec Ideal S1024x1024 .f32) (b : Vec Ideal S1x1024 .f32) (p q : Fin 1024) :
    withBias (F := Ideal) s b (ix2 p q) = s (ix2 p q) + b (ix2 (0 : Fin 1) q) := by
  unfold withBias k1_pay3
  simp only [shapeCast_self]
  exact congrArg (s (ix2 p q) + ·) (broadcastTo_1b_ab_apply b broadcasts_S1x1024_S1024x1024 p q)

end Cert.KernelIdeal.Proj

end
-- ==== Proof.ProjValueBlocks.lean ====
/-
  The output layer's blocks as parts of its arrays, and the running total at a last contracted block.

  Point t of the 4 × 4 grid works on row block t / 4 and contracted block t % 4. Its hidden-state block holds rows
  1024·(t/4) … and columns 1024·(t%4) … of the hidden state; its weight block holds all 1024 rows and columns
  1024·(t%4) … of the weights; its bias block is the whole bias row. At a last contracted block the running total is
  the four blocks' shares of the contraction added up from zero.
-/
import proofs.«111847_j33921651704507_1_alg».proof.Proof.ProjData
import proofs.«111847_j33921651704507_1_alg».proof.Proof.ProjValuePoint
import proofs.«111847_j33921651704507_1_alg».proof.Proof.Spec

noncomputable section

namespace Cert.KernelIdeal.Proj

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The hidden state the call reads: 4096 rows of 4096. -/
abbrev Harr (c : Dev nD) : Cert.Cell.Sq.Idx → EReal := V c main_v5
/-- The output layer's weights: 1024 rows of 4096. -/
abbrev Warr (c : Dev nD) : Cert.Cell.Wo.Idx → EReal := V c main_v6
/-- The bias, as one row of 1024. -/
abbrev Brow (c : Dev nD) : (⟨2, ![1, 1024]⟩ : Shape).Idx → EReal := V c main_v7

/-! ## Where each window's block sits -/

/-- The hidden-state window's block index: row block and contracted block. -/
theorem idxH : ∀ t : Fin cfg1.N, win1_0.index t (0 : Fin 2) = t.val / 4 ∧ win1_0.index t (1 : Fin 2) = t.val % 4 :=
  (by decide +kernel : ∀ t : Fin grid1.N, _)
/-- The weight window's block index: all rows, the contracted block. -/
theorem idxW : ∀ t : Fin cfg1.N, win1_1.index t (0 : Fin 2) = 0 ∧ win1_1.index t (1 : Fin 2) = t.val % 4 :=
  (by decide +kernel : ∀ t : Fin grid1.N, _)
/-- The bias window's block index: the one block. -/
theorem idxB : ∀ t : Fin cfg1.N, win1_2.index t (0 : Fin 2) = 0 ∧ win1_2.index t (1 : Fin 2) = 0 :=
  (by decide +kernel : ∀ t : Fin grid1.N, _)
/-- The result window's block index: the row block, all units. -/
theorem idxR : ∀ t : Fin cfg1.N, win1_3.index t (0 : Fin 2) = t.val / 4 ∧ win1_3.index t (1 : Fin 2) = 0 :=
  (by decide +kernel : ∀ t : Fin grid1.N, _)

/-- The hidden-state block at point `t`, entry `(p, l)`: the hidden state at row `1024·(t/4) + p`, column `1024·(t%4) + l`. -/
theorem hblk_apply (c : Dev nD) (t : Fin cfg1.N) (p l : Fin 1024) (r k : Fin 4096)
    (hr : r.val = 1024 * (t.val / 4) + p.val) (hk : k.val = 1024 * (t.val % 4) + l.val) :
    hblk V c t (ix2 p l) = Harr V c (ix2 r k) := by
  obtain ⟨e0, e1⟩ := idxH t
  show V c main_v5 (((cfg1.win 0).blk t).view.emb (ix2 p l)) = V c main_v5 (ix2 r k)
  refine congrArg (V c main_v5) (funext fun a => Fin.ext ?_)
  match a with
  | ⟨0, _⟩ => show win1_0.index t (0 : Fin 2) * 1024 + 1 * p.val = r.val; omega
  | ⟨1, _⟩ => show win1_0.index t (1 : Fin 2) * 1024 + 1 * l.val = k.val; omega

/-- The weight block at point `t`, entry `(q, l)`: the weights at row `q`, column `1024·(t%4) + l`. -/
theorem wblk_apply (c : Dev nD) (t : Fin cfg1.N) (q l : Fin 1024) (k : Fin 4096)
    (hk : k.val = 1024 * (t.val % 4) + l.val) :
    wblk V c t (ix2 q l) = Warr V c (ix2 q k) := by
  obtain ⟨e0, e1⟩ := idxW t
  show V c main_v6 (((cfg1.win 1).blk t).view.emb (ix2 q l)) = V c main_v6 (ix2 q k)
  refine congrArg (V c main_v6) (funext fun a => Fin.ext ?_)
  match a with
  | ⟨0, _⟩ => show win1_1.index t (0 : Fin 2) * 1024 + 1 * q.val = q.val; omega
  | ⟨1, _⟩ => show win1_1.index t (1 : Fin 2) * 1024 + 1 * l.val = k.val; omega

/-- The bias block at any point is the bias row. -/
theorem bblk_apply (c : Dev nD) (t : Fin cfg1.N) (q : Fin 1024) :
    bblk V c t (ix2 (0 : Fin 1) q) = Brow V c (ix2 (0 : Fin 1) q) := by
  obtain ⟨e0, e1⟩ := idxB t
  show V c main_v7 (((cfg1.win 2).blk t).view.emb (ix2 (0 : Fin 1) q)) = V c main_v7 (ix2 (0 : Fin 1) q)
  refine congrArg (V c main_v7) (funext fun a => Fin.ext ?_)
  match a with
  | ⟨0, _⟩ => show win1_2.index t (0 : Fin 2) * 1 + 1 * 0 = 0; omega
  | ⟨1, _⟩ => show win1_2.index t (1 : Fin 2) * 1024 + 1 * q.val = q.val; omega

end Cert.KernelIdeal.Proj

end
-- ==== Proof.ProjValueTotal.lean ====
/-
  What the output layer's call stores at a last contracted block, entry by entry.

  One block's share of the contraction at row p and unit q is the sum over the block's 1024 columns of the hidden-state
  entry times the weight entry. The running total at a last contracted block is the four shares of its row block added
  up from zero, and four blocks of 1024 columns are the 4096 columns of the whole contraction: the total plus the bias
  entry is the output layer's value at that row and unit.
-/
import proofs.«111847_j33921651704507_1_alg».proof.Proof.ProjValueBlocks
import proofs.«111847_j33921651704507_1_alg».proof.Proof.LibSumRows

noncomputable section

namespace Cert.KernelIdeal.Proj

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- Point `t`'s share of the contraction at row `p` of its row block and unit `q`. -/
def share (c : Dev nD) (t : Fin cfg1.N) (p q : Fin 1024) : EReal :=
  ∑ l : Fin 1024, hblk V c t (ix2 p l) * wblk V c t (ix2 q l)

/-- At a first contracted block the total is that point's share. -/
theorem total_first (c : Dev nD) (n : ℕ) (hn : n < cfg1.N) (h0 : n % 4 = 0) (p q : Fin 1024) :
    totalAt V c n hn (ix2 p q) = share V c ⟨n, hn⟩ p q := by
  refine (congrFun (totalAt_first V c ⟨n, hn⟩ h0) (ix2 p q)).trans ?_
  refine (blockSum_apply (cleared (F := Ideal)) (hblk V c ⟨n, hn⟩) (wblk V c ⟨n, hn⟩) p q).trans ?_
  rw [cleared_apply, zero_add]
  rfl

/-- At any other block the total is the one before plus that point's share. -/
theorem total_step (c : Dev nD) (n : ℕ) (hn : n + 1 < cfg1.N) (h0 : ¬(n + 1) % 4 = 0) (p q : Fin 1024) :
    totalAt V c (n + 1) hn (ix2 p q) = totalAt V c n (Nat.lt_of_succ_lt hn) (ix2 p q) + share V c ⟨n + 1, hn⟩ p q := by
  refine (congrFun (totalAt_next V c ⟨n + 1, hn⟩ h0) (ix2 p q)).trans ?_
  exact blockSum_apply (totalAt V c n (Nat.lt_of_succ_lt hn)) (hblk V c ⟨n + 1, hn⟩) (wblk V c ⟨n + 1, hn⟩) p q

/-- At a last contracted block the total is the four shares of the row block. -/
theorem total_last (c : Dev nD) (m : ℕ) (hm : m + 3 < cfg1.N) (h0 : m % 4 = 0) (p q : Fin 1024) :
    totalAt V c (m + 3) hm (ix2 p q)
      = share V c ⟨m, by omega⟩ p q + share V c ⟨m + 1, by omega⟩ p q + share V c ⟨m + 2, by omega⟩ p q
        + share V c ⟨m + 3, hm⟩ p q := by
  rw [total_step V c (m + 2) hm (by omega), total_step V c (m + 1) (by omega) (by omega),
    total_step V c m (by omega) (by omega), total_first V c m (by omega) h0]

/-- A point's share, with its blocks read off the arrays: row `r` of the hidden state against row `q` of the weights,
    over the 1024 columns of contracted block `i`. -/
theorem share_eq (c : Dev nD) (t : Fin cfg1.N) (a : ℕ) (i : Fin 4) (ht : t.val = 4 * a + i.val) (p q : Fin 1024)
    (r : Fin 4096) (hr : r.val = 1024 * a + p.val) :
    share V c t p q
      = ∑ l : Fin 1024, Harr V c (ix2 r ⟨1024 * i.val + l.val, by omega⟩) * Warr V c (ix2 q ⟨1024 * i.val + l.val, by omega⟩) := by
  unfold share
  refine Finset.sum_congr rfl fun l _ => ?_
  have hk : 1024 * i.val + l.val = 1024 * (t.val % 4) + l.val := by omega
  rw [hblk_apply V c t p l r ⟨1024 * i.val + l.val, by omega⟩ (by omega) hk,
    wblk_apply V c t q l ⟨1024 * i.val + l.val, by omega⟩ hk]

/-- What a last contracted block stores at row `p` of its row block and unit `q`: the output layer's value at row `r`
    of the whole array and unit `q`. -/
theorem stored_entry (c : Dev nD) (m : ℕ) (hm : m + 3 < cfg1.N) (h0 : m % 4 = 0) (p q : Fin 1024) (r : Fin 4096)
    (hr : r.val = 1024 * (m / 4) + p.val) :
    withBias (totalAt V c (m + 3) hm) (bblk V c ⟨m + 3, hm⟩) (ix2 p q)
      = Cert.Cell.outputAt (Harr V c) (Warr V c) (fun i => Brow V c (ix2 0 (i 0))) r q := by
  rw [withBias_apply, total_last V c m hm h0, bblk_apply]
  unfold Cert.Cell.outputAt
  refine congrArg (· + Brow V c (ix2 (0 : Fin 1) q)) ?_
  rw [Cert.LibSumRows.sum_fin_rows (n := 4096) (a := 4) (b := 1024) rfl
      (fun L => Harr V c (ix2 r L) * Warr V c (ix2 q L))
      (fun i l => Harr V c (ix2 r ⟨1024 * i.val + l.val, by omega⟩) * Warr V c (ix2 q ⟨1024 * i.val + l.val, by omega⟩))
      (fun i l h => rfl),
    Fin.sum_univ_four,
    share_eq V c ⟨m, by omega⟩ (m / 4) 0 (by show m = 4 * (m / 4) + 0; omega) p q r hr,
    share_eq V c ⟨m + 1, by omega⟩ (m / 4) 1 (by show m + 1 = 4 * (m / 4) + 1; omega) p q r hr,
    share_eq V c ⟨m + 2, by omega⟩ (m / 4) 2 (by show m + 2 = 4 * (m / 4) + 2; omega) p q r hr,
    share_eq V c ⟨m + 3, hm⟩ (m / 4) 3 (by show m + 3 = 4 * (m / 4) + 3; omega) p q r hr]

end Cert.KernelIdeal.Proj

end
-- ==== Proof.ProjValue.lean ====
/-
  The output layer's call as a whole: the array it leaves.

  The result array is written back one row block at a time, at the last of each row block's four contracted blocks.
  What is written there is, entry by entry, the output layer's value at that row and unit; the four row blocks cover
  the 4096 rows, so the array ends holding the output layer's value everywhere.
-/
import proofs.«111847_j33921651704507_1_alg».proof.Proof.ProjValueTotal
import Idealize.ShloMosaic.Lib.Pipeline.Value

noncomputable section

namespace Cert.KernelIdeal.Proj

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The output layer applied to the arrays the call reads. -/
abbrev layerOut (c : Dev nD) : Cert.Cell.Res.Idx → EReal :=
  Cert.Cell.output (Harr V c) (Warr V c) (fun i => Brow V c (ix2 0 (i 0)))

/-- What the last contracted block of a row block stores is that row block of the output layer's value. -/
theorem stored_block (c : Dev nD) (m : ℕ) (hm : m + 3 < cfg1.N) (h0 : m % 4 = 0) :
    (cfg1.win 3).cut (cfg1.grid.coords ⟨m + 3, hm⟩) (withBias (totalAt V c (m + 3) hm) (bblk V c ⟨m + 3, hm⟩))
      = ((cfg1.win 3).blk ⟨m + 3, hm⟩).view.read (Elt Ideal) (layerOut V c) := by
  have hN : cfg1.N = 16 := N_1
  obtain ⟨e0, e1⟩ := idxR ⟨m + 3, hm⟩
  have e0' : win1_3.index ⟨m + 3, hm⟩ (0 : Fin 2) = (m + 3) / 4 := e0
  funext y
  obtain ⟨p, q, rfl⟩ : ∃ (p q : Fin 1024), y = ix2 p q := ⟨y 0, y 1, eq_ix2 y⟩
  have hr : 1024 * (m / 4) + p.val < 4096 := by omega
  show withBias (totalAt V c (m + 3) hm) (bblk V c ⟨m + 3, hm⟩) (ix2 p q)
    = layerOut V c (((cfg1.win 3).blk ⟨m + 3, hm⟩).view.emb (ix2 p q))
  have e : ((cfg1.win 3).blk ⟨m + 3, hm⟩).view.emb (ix2 p q)
      = (ix2 (⟨1024 * (m / 4) + p.val, hr⟩ : Fin 4096) q : Cert.Cell.Res.Idx) := by
    funext a; apply Fin.ext
    match a with
    | ⟨0, _⟩ => show win1_3.index ⟨m + 3, hm⟩ (0 : Fin 2) * 1024 + 1 * p.val = 1024 * (m / 4) + p.val; omega
    | ⟨1, _⟩ => show win1_3.index ⟨m + 3, hm⟩ (1 : Fin 2) * 1024 + 1 * q.val = q.val; omega
  rw [e]
  exact stored_entry V c m hm h0 p q ⟨1024 * (m / 4) + p.val, hr⟩ rfl

/-- What a point that writes the result back writes is its block of the output layer's value. -/
theorem flushed_eq (c : Dev nD) (t : Fin cfg1.N) (hf : (cfg1.win 3).flush t = true) :
    (dat V c).flushed 3 t = ((cfg1.win 3).blk t).view.read (Elt Ideal) (layerOut V c) := by
  have h3 : t.val % 4 = 3 := (flush1_3 t).mp hf
  obtain ⟨n, hn⟩ := t
  have h3' : n % 4 = 3 := h3
  obtain ⟨m, rfl⟩ : ∃ m, n = m + 3 := ⟨n - 3, by omega⟩
  show (cfg1.win 3).cut (cfg1.grid.coords ⟨m + 3, hn⟩) ((dat V c).after 3 ⟨m + 3, hn⟩) = _
  rw [after3]
  exact stored_block V c m hn (by omega)

/-- An index of the result array is in point `t`'s block iff each coordinate is in the block's range on its axis. -/
theorem mem_blk (t : Fin cfg1.N) (i : Cert.Cell.Res.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v8).slice (win1_3.rect t)).set ↔ _
  rw [View.set_slice_whole, Rect.mem_set_unit]
  exact Iff.rfl

/-- Every row of the result lies in one of the four row blocks, each written back at its last contracted block. -/
theorem cover (i : Cert.Cell.Res.Idx) :
    ∃ t : Fin cfg1.N, (cfg1.win 3).flush t = true ∧ i ∈ ((cfg1.win 3).blk t).view.set := by
  have hi0 : (i 0).val < 4096 := idx2_lt0 i
  have hi1 : (i 1).val < 1024 := idx2_lt1 i
  have hN : cfg1.N = 16 := N_1
  have hb : 4 * ((i 0).val / 1024) + 3 < cfg1.N := by omega
  obtain ⟨e0, e1⟩ := idxR ⟨4 * ((i 0).val / 1024) + 3, hb⟩
  have e0' : win1_3.index ⟨4 * ((i 0).val / 1024) + 3, hb⟩ (0 : Fin 2) = (4 * ((i 0).val / 1024) + 3) / 4 := e0
  refine ⟨⟨4 * ((i 0).val / 1024) + 3, hb⟩, (flush1_3 _).mpr (by show (4 * ((i 0).val / 1024) + 3) % 4 = 3; omega), ?_⟩
  rw [mem_blk]
  intro a
  match a with
  | ⟨0, _⟩ =>
    show win1_3.index ⟨4 * ((i 0).val / 1024) + 3, hb⟩ (0 : Fin 2) * 1024 ≤ (i 0).val
      ∧ (i 0).val < win1_3.index ⟨4 * ((i 0).val / 1024) + 3, hb⟩ (0 : Fin 2) * 1024 + 1024
    omega
  | ⟨1, _⟩ =>
    show win1_3.index ⟨4 * ((i 0).val / 1024) + 3, hb⟩ (1 : Fin 2) * 1024 ≤ (i 1).val
      ∧ (i 1).val < win1_3.index ⟨4 * ((i 0).val / 1024) + 3, hb⟩ (1 : Fin 2) * 1024 + 1024
    omega

/-- After the call the result array holds the output layer's value of the hidden state, the weights and the bias the
    call read. -/
theorem final (c : Dev nD) :
    (dat (F := Ideal) V c).arrAt 3 cfg1.N
      = Cert.Cell.output (Harr V c) (Warr V c) (fun i => Brow V c (ix2 0 (i 0))) :=
  (dat V c).arrAt_eq_of_cover 3 (layerOut V c) (fun t ht => flushed_eq V c t ht) (cover)

end Cert.KernelIdeal.Proj

end
-- ==== Proof.KernelValue.lean ====
/-
  The idealized kernel's result as the specification's function of the launch arguments.

  The first call's result array is the new hidden state of what the call found; it found the arguments themselves
  (narrowing is the identity at the ideal values) and the first bias as a row. The second call's result array is the
  output layer applied to the hidden-state array it found — the first call's result, untouched —, the output weights
  and the second bias as a row. Together: the specification's `result` of the seven arguments.
-/
import proofs.«111847_j33921651704507_1_alg».proof.Proof.HostReads
import proofs.«111847_j33921651704507_1_alg».proof.Proof.Spec
import proofs.«111847_j33921651704507_1_alg».proof.Proof.RnnValue
import proofs.«111847_j33921651704507_1_alg».proof.Proof.ProjValue

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first call leaves the new hidden state of the launch arguments. -/
theorem hidden_value (c : Dev nD) :
    (Rnn.dat (F := Ideal) (V1 m ρ) c).arrAt 5 cfg0.N
      = Cert.Cell.hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [Rnn.final (V1 m ρ) c]
  show Cert.Cell.hidden (V1 m ρ c main_v0) (V1 m ρ c main_v1) (V1 m ρ c main_v2) (V1 m ρ c main_v3)
    (fun i => (V1 m ρ c main_v4 : S1x4096.Idx → EReal) (ix2 (0 : Fin 1) (i 0))) = _
  rw [read_v0, read_v1, read_v2, read_v3]
  congr 1
  funext i
  exact (read_v4 m ρ c (i 0)).trans (congrArg _ (eq_ix1 i).symm)

/-- The second call leaves the output layer applied to it: the whole computation of the launch arguments. -/
theorem result_value (c : Dev nD) :
    (Proj.dat (F := Ideal) (V3 m ρ) c).arrAt 3 cfg1.N
      = Cert.Cell.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Proj.final (V3 m ρ) c]
  show Cert.Cell.output (V3 m ρ c main_v5) (V3 m ρ c main_v6)
    (fun i => (V3 m ρ c main_v7 : S1x1024.Idx → EReal) (ix2 (0 : Fin 1) (i 0))) = _
  rw [read_v5, hidden_value, read_v6]
  unfold Cert.Cell.result
  congr 1
  funext i
  exact (read_v7 m ρ c (i 0)).trans (congrArg _ (eq_ix1 i).symm)

/-- The idealized kernel's run: it ends with the result array at the specification's value of the arguments, the
    arguments unchanged. -/
theorem run_spec : θ_run defs (onTc (τ := τ) (main (F := Ideal))) ⟨m, fun _ => 0, ρ⟩ (fun r => ∀ c : Dev nD,
      r.2.mem ((c.tc : Thread nD τ).loc main_v8) = Cert.Cell.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c => ⟨(h c).1.trans (result_value m ρ c), (h c).2⟩) (run_named (F := Ideal) m ρ)

end Cert.KernelIdeal.Whole

end
-- ==== Proof.LibMatmulRowsByRows.lean ====
/-
  The product of an m×k matrix with the transpose of an n×k matrix, read at an index, at the ideal values.

  With A of m rows and B of n rows, both of k entries, the product contracting the LAST axis of both has at (r, h) the
  entry Σ_l A(r, l)·B(h, l): row r of A against row h of B. At the ideal values, where no rounding and no order of
  summation is left, both the kernel's product into a zero accumulator and the host's product read exactly that sum.
  The four coordinate lemmas say where each operand is read: the contracted axis takes the contraction's one
  coordinate, each operand's kept axis the matching coordinate of the result.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

variable {m k n : ℕ}

/-- The dimension numbers `[1] × [1]`, kept axes `[0]` and `[0]`, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's kept axis reads the result's first coordinate. -/
theorem lhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's kept axis reads the result's second coordinate. -/
theorem rhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 0).val = (j 1).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 1).val = (q ⟨0, Nat.one_pos⟩).val :=
  (dims w).rhsIdx_val_of_single rfl j q

/-- The contraction's sum, re-indexed by the contracted coordinate: the left operand is read along its row `r`, the
    right one along its row `h`. -/
theorem sum_contr (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- A kernel's product of an m×k matrix with the transpose of an n×k matrix into the zero accumulator, read at `(r, h)`. -/
theorem matmul_rows_by_rows_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply]
  exact sum_contr w A B r h

/-- The host's product of an m×k matrix with the transpose of an n×k matrix, read at `(r, h)`. -/
theorem dotGeneral_rows_by_rows_apply {φ₁ φ₂ : FTy}
    (w : DotDims.WF ⟨2, ![m, k]⟩ ⟨2, ![n, k]⟩ ⟨2, ![m, n]⟩ [1] [1] [0] [0] [] [])
    (prec : Option ContractPrecision) (sched : HostSchedule) (A : FVec Ideal ⟨2, ![m, k]⟩ φ₁) (B : FVec Ideal ⟨2, ![n, k]⟩ φ₂)
    (r : Fin m) (h : Fin n) :
    FloatOps.dotGeneral (⟨[1], [1], [0], [0], [], [], w⟩ : DotDims _ _ _) prec sched A B (ix2 r h)
      = ∑ l : Fin k, A (ix2 r l) * B (ix2 h l) := by
  rw [Ideal.dotGeneral_apply]
  exact sum_contr w A B r h

end Idealize.ShloMosaic.MatmulRowsByRows

end
-- ==== Proof.RefValue.lean ====
/-
  The reference computation read as a function of its argument arrays.

  The host program forms x·Wxᵀ and h·Whᵀ, adds them, adds the bias repeated down the rows, takes tanh entry by entry,
  multiplies the result by Woutᵀ and adds the output bias repeated down the rows. Entry by entry this is the recurrent
  cell followed by the output layer: at row r and unit c the first product is Σ_l x(r,l)·Wx(c,l), the second
  Σ_l h(r,l)·Wh(c,l), the repeated bias is b(c), and at row r and unit o the last product is Σ_l H(r,l)·Wo(o,l) with
  the repeated bias bo(o). Nothing is reordered on this side: each entry of the program's result is, term for term, the
  specification's entry.
-/
import proofs.«111847_j33921651704507_1_alg».proof.Defs
import proofs.«111847_j33921651704507_1_alg».proof.Proof.Gen.Pre_finite_inputs
import proofs.«111847_j33921651704507_1_alg».proof.Proof.Gen.ReferenceIdeal.Run
import proofs.«111847_j33921651704507_1_alg».proof.Proof.Gen.ReferenceIdeal.Read
import proofs.«111847_j33921651704507_1_alg».proof.Proof.Spec
import proofs.«111847_j33921651704507_1_alg».proof.Proof.LibMatmulRowsByRows
import proofs.«111847_j33921651704507_1_alg».proof.Proof.LibDenseLayer

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## Each stage read at an entry -/

/-- The product of two square matrices along their rows: at (r, c), row r of the first against row c of the second. -/
theorem squareProduct_apply (A B : FVec Ideal S4096x4096 .f32) (r c : Fin 4096) :
    Host.dotGeneral (F := Ideal) dot_S4096x4096_S4096x4096_S4096x4096_1_1_0_0_n_n none A B (ix2 r c)
      = ∑ l : Fin 4096, A (ix2 r l) * B (ix2 c l) :=
  MatmulRowsByRows.dotGeneral_rows_by_rows_apply _ none .single A B r c

/-- The product with the output weights along their rows: at (r, o), row r of the hidden state against row o of the
    weights. -/
theorem outputProduct_apply (H : FVec Ideal S4096x4096 .f32) (W : FVec Ideal S1024x4096 .f32) (r : Fin 4096) (o : Fin 1024) :
    Host.dotGeneral (F := Ideal) dot_S4096x4096_S1024x4096_S4096x1024_1_1_0_0_n_n none H W (ix2 r o)
      = ∑ l : Fin 4096, H (ix2 r l) * W (ix2 o l) :=
  MatmulRowsByRows.dotGeneral_rows_by_rows_apply _ none .single H W r o

/-- The hidden bias laid out as one row and repeated down the 4096 rows reads, at (r, c), its entry c. -/
theorem hiddenBias_apply (h1 : S4096.BroadcastsInDim S1x4096 ![1]) (h2 : S1x4096.BroadcastsInDim S4096x4096 ![0, 1])
    (b : FVec Ideal S4096 .f32) (r c : Fin 4096) :
    broadcastInDim S4096x4096 ![0, 1] h2 (broadcastInDim S1x4096 ![1] h1 b) (ix2 r c) = b (ix1 c) :=
  DenseLayer.bias_inDim_apply h1 h2 b r c

/-- The output bias laid out as one row and repeated down the 4096 rows reads, at (r, o), its entry o. -/
theorem outputBias_apply (h1 : S1024.BroadcastsInDim S1x1024 ![1]) (h2 : S1x1024.BroadcastsInDim S4096x1024 ![0, 1])
    (b : FVec Ideal S1024 .f32) (r : Fin 4096) (o : Fin 1024) :
    broadcastInDim S4096x1024 ![0, 1] h2 (broadcastInDim S1x1024 ![1] h1 b) (ix2 r o) = b (ix1 o) :=
  DenseLayer.bias_inDim_apply h1 h2 b r o

/-- The host's tanh of an array is, entry by entry, tanh on the extended reals. -/
theorem tanh_apply {s : Shape} (Y : FVec Ideal s .f32) (j : s.Idx) : Host.tanh Y j = Ideal.tanh (Y j) := rfl

/-! ## The hidden state -/

/-- The program's hidden state: tanh of the two products' sum plus the repeated bias. -/
def hiddenTerm (a0 a1 a2 a3 : FVec Ideal S4096x4096 .f32) (a4 : FVec Ideal S4096 .f32) : FVec Ideal S4096x4096 .f32 :=
  Host.tanh (addf (addf (Host.dotGeneral dot_S4096x4096_S4096x4096_S4096x4096_1_1_0_0_n_n none a0 a2)
      (Host.dotGeneral dot_S4096x4096_S4096x4096_S4096x4096_1_1_0_0_n_n none a1 a3))
    (broadcastInDim S4096x4096 ![0, 1] bcast_S1x4096_S4096x4096_0_1 (broadcastInDim S1x4096 ![1] bcast_S4096_S1x4096_1 a4)))

/-- At (r, c) the program's hidden state is the cell's: tanh of Σ_l x(r,l)·Wx(c,l) + Σ_l h(r,l)·Wh(c,l) + b(c). -/
theorem hiddenTerm_apply (a0 a1 a2 a3 : FVec Ideal S4096x4096 .f32) (a4 : FVec Ideal S4096 .f32) (r c : Fin 4096) :
    hiddenTerm a0 a1 a2 a3 a4 (ix2 r c) = Cert.Cell.hiddenAt a0 a1 a2 a3 a4 r c := by
  unfold hiddenTerm
  rw [tanh_apply, addf_apply, addf_apply, squareProduct_apply, squareProduct_apply, hiddenBias_apply]
  rfl

/-- The program's hidden state is the cell's, as arrays. -/
theorem hiddenTerm_eq (a0 a1 a2 a3 : FVec Ideal S4096x4096 .f32) (a4 : FVec Ideal S4096 .f32) :
    hiddenTerm a0 a1 a2 a3 a4 = Cert.Cell.hidden a0 a1 a2 a3 a4 := by
  funext i
  conv_lhs => rw [eq_ix2 i]
  exact hiddenTerm_apply a0 a1 a2 a3 a4 (i 0) (i 1)

/-! ## The result -/

/-- At (r, o) the output layer over any hidden state H: Σ_l H(r,l)·Wo(o,l) + bo(o). -/
theorem outputTerm_apply (H : FVec Ideal S4096x4096 .f32) (a5 : FVec Ideal S1024x4096 .f32) (a6 : FVec Ideal S1024 .f32)
    (r : Fin 4096) (o : Fin 1024) :
    addf (Host.dotGeneral dot_S4096x4096_S1024x4096_S4096x1024_1_1_0_0_n_n none H a5)
        (broadcastInDim S4096x1024 ![0, 1] bcast_S1x1024_S4096x1024_0_1 (broadcastInDim S1x1024 ![1] bcast_S1024_S1x1024_1 a6))
        (ix2 r o)
      = Cert.Cell.outputAt H a5 a6 r o := by
  rw [addf_apply, outputProduct_apply, outputBias_apply]
  rfl

/-- The reference program's result, as a function of its seven argument arrays, is the specification's. -/
theorem result_eq (a0 a1 a2 a3 : FVec Ideal S4096x4096 .f32) (a4 : FVec Ideal S4096 .f32)
    (a5 : FVec Ideal S1024x4096 .f32) (a6 : FVec Ideal S1024 .f32) :
    addf (Host.dotGeneral dot_S4096x4096_S1024x4096_S4096x1024_1_1_0_0_n_n none (Host.tanh (addf (addf (Host.dotGeneral dot_S4096x4096_S4096x4096_S4096x4096_1_1_0_0_n_n none a0 a2) (Host.dotGeneral dot_S4096x4096_S4096x4096_S4096x4096_1_1_0_0_n_n none a1 a3)) (broadcastInDim S4096x4096 ![0, 1] bcast_S1x4096_S4096x4096_0_1 (broadcastInDim S1x4096 ![1] bcast_S4096_S1x4096_1 a4)))) a5) (broadcastInDim S4096x1024 ![0, 1] bcast_S1x1024_S4096x1024_0_1 (broadcastInDim S1x1024 ![1] bcast_S1024_S1x1024_1 a6))
      = Cert.Cell.result a0 a1 a2 a3 a4 a5 a6 := by
  change addf (Host.dotGeneral dot_S4096x4096_S1024x4096_S4096x1024_1_1_0_0_n_n none (hiddenTerm a0 a1 a2 a3 a4) a5) _ = _
  rw [hiddenTerm_eq]
  funext i
  conv_lhs => rw [eq_ix2 i]
  exact outputTerm_apply _ a5 a6 (i 0) (i 1)

/-! ## The run -/

/-- Every weakly fair execution of the reference program terminates with its result buffer at the specification's
    function of the launch contents of its arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = Cert.Cell.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq _ _ _ _ _ _ _), (h c).2⟩)
    (Cert.ReferenceIdeal.Value.run (F := Ideal) m ρ)

/-- The reference program runs and leaves its arguments as it found them. -/
theorem frame_ref : Cert.frame_ReferenceIdeal := fun m ρ _ =>
  (θ_run defs _ _).mono (fun _ h c => (h c).2) (run_spec m ρ)

end Cert.ReferenceIdeal.RefValue

end
-- ==== Proof.lean ====
/-
  A fused recurrent cell on the matrix unit against its plain reference: equal over the extended reals.

  The kernel computes  tanh(x·Wxᵀ + h·Whᵀ + b)  in one call and  H·Woᵀ + bo  in a second, each accumulating over four
  blocks of the contracted axis in a scratch total that is cleared at the first block and read out at the last; the
  operands are narrowed on the way in, which at the ideal values is the identity. The reference computes the same two
  expressions whole. Both are the specification `Cert.Cell.result` of the seven arguments: the kernel because four block
  sums of 1024 products are the one sum of 4096 and each result block is the specification's block; the reference by
  reading its operations at an index. No law beyond the commutative monoid of + on the extended reals is used, so the
  precondition is never opened.
  The three frames: the two kernel programs run through both calls with every buffer's contents named between items
  (the word-level program by the same text as the idealized one); the reference's frame is its run with the result dropped.
  Nothing was rewritten by the idealization, so `preserves` is trivial.
-/
import proofs.«111847_j33921651704507_1_alg».proof.Defs
import proofs.«111847_j33921651704507_1_alg».proof.Proof.Gen.Kernel
import proofs.«111847_j33921651704507_1_alg».proof.Proof.Gen.KernelIdeal
import proofs.«111847_j33921651704507_1_alg».proof.Proof.Gen.ReferenceIdeal
import proofs.«111847_j33921651704507_1_alg».proof.Proof.Gen.Pre_finite_inputs
import proofs.«111847_j33921651704507_1_alg».proof.Proof.BitsRun
import proofs.«111847_j33921651704507_1_alg».proof.Proof.KernelValue
import proofs.«111847_j33921651704507_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Whole.frame (F := Bits) m ρ

/-- The idealized kernel runs and leaves its arguments unchanged. -/
theorem frame_kernelIdeal : Cert.frame_KernelIdeal := fun m ρ _ => Cert.KernelIdeal.Whole.frame (F := Ideal) m ρ

/-- From memories agreeing on the arguments both idealized programs end with the specification's value of those
    arguments in their result buffers. -/
theorem algebraic : Cert.algebraic_KernelIdeal_ReferenceIdeal := by
  intro m ρ m' ρ' _ hagree
  refine ⟨_, Cert.KernelIdeal.Whole.run_spec m ρ, ?_⟩
  refine (θ_run Cert.ReferenceIdeal.defs _ _).mono (fun r h c => ⟨(h c).1.trans ?_, (h c).2⟩)
    (Cert.ReferenceIdeal.RefValue.run_spec m' ρ')
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefValue.frame_ref, trivial, algebraic⟩

end Cert.Proof

end
